-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S8x512x512 : Shape := ⟨3, ![8, 512, 512]⟩
abbrev S8x1024x2 : Shape := ⟨3, ![8, 1024, 2]⟩
abbrev S8x1024 : Shape := ⟨2, ![8, 1024]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S8x16x512x512 .f32) (main_arg1 : IVec S8x512x512 1) (main_arg2 : IVec S8x1024x2 32) (main_arg3 : IVec S8x1024 32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_c_0 : IVec S_ 32 := constantI S_ 32 0#32
  let main_v4 : IVec S8x1024 32 := broadcastInDim S8x1024 ![] bcast_S_S8x1024 main_c_0
  let main_v5 : IVec S8x1024 1 := cmpi .sge main_arg3 main_v4
  let main_c_1 : IVec S_ 32 := constantI S_ 32 16#32
  let main_v6 : IVec S8x1024 32 := broadcastInDim S8x1024 ![] bcast_S_S8x1024 main_c_1
  let main_v7 : IVec S8x1024 1 := cmpi .slt main_arg3 main_v6
  let main_v8 : IVec S8x1024 1 := andi main_v5 main_v7
  let main_c_2 : IVec S_ 1 := constantI S_ 1 1#1
  let main_v9 : IVec S_ 1 := (fun x v => Host.reduce IntOp.andi x v reducesTo_S8x1024_S_d0_1 h_S_) main_v8 main_c_2
  let main_v10 : IVec S_ 1 := andi main_v3 main_v9
  main_v10
-- ==== Kernel.lean ====
abbrev S8x16x512x512 : Shape := ⟨4, ![8, 16, 512, 512]⟩
abbrev S8x512x512 : Shape := ⟨3, ![8, 512, 512]⟩
abbrev S8x1024x2 : Shape := ⟨3, ![8, 1024, 2]⟩
abbrev S8x1024 : Shape := ⟨2, ![8, 1024]⟩
abbrev S8 : Shape := ⟨1, ![8]⟩
abbrev S8x1 : Shape := ⟨2, ![8, 1]⟩
abbrev S_ : Shape := ⟨0, ![]⟩
abbrev S8x1024x1 : Shape := ⟨3, ![8, 1024, 1]⟩
abbrev S8x1024x3 : Shape := ⟨3, ![8, 1024, 3]⟩
abbrev S8x8x128 : Shape := ⟨3, ![8, 8, 128]⟩
abbrev S1x16x128x512 : Shape := ⟨4, ![1, 16, 128, 512]⟩
abbrev S1x128x512 : Shape := ⟨3, ![1, 128, 512]⟩
abbrev S1x8x128 : Shape := ⟨3, ![1, 8, 128]⟩
abbrev S8x128 : Shape := ⟨2, ![8, 128]⟩
abbrev S16x128x512 : Shape := ⟨3, ![16, 128, 512]⟩
abbrev S128x512 : Shape := ⟨2, ![128, 512]⟩
abbrev S128 : Shape := ⟨1, ![128]⟩
abbrev S128x1 : Shape := ⟨2, ![128, 1]⟩
abbrev S1 : Shape := ⟨1, ![1]⟩
abbrev S1x1 : Shape := ⟨2, ![1, 1]⟩
abbrev S8x1x1 : Shape := ⟨3, ![8, 1, 1]⟩

abbrev nBuf : Space → Nat
  | .hbm => 54
  | .vmem => 10
  | .smem => 0
  | _ => 0

abbrev bufTy : (tb : Table) → Fin (tcTables nBuf tb) → BufTy
  | .hbm, ⟨0, _⟩ => ⟨S8x16x512x512, .f32⟩
  | .hbm, ⟨1, _⟩ => ⟨S8x512x512, .i1⟩
  | .hbm, ⟨2, _⟩ => ⟨S8x1024x2, .i32⟩
  | .hbm, ⟨3, _⟩ => ⟨S8x1024, .i32⟩
  | .hbm, ⟨4, _⟩ => ⟨S8, .i32⟩
  | .hbm, ⟨5, _⟩ => ⟨S8x1, .i32⟩
  | .hbm, ⟨6, _⟩ => ⟨S8x1024, .i32⟩
  | .hbm, ⟨7, _⟩ => ⟨S_, .i32⟩
  | .hbm, ⟨8, _⟩ => ⟨S8x512x512, .i32⟩
  | .hbm, ⟨9, _⟩ => ⟨S8x1024x1, .i32⟩
  | .hbm, ⟨10, _⟩ => ⟨S8x1024, .i32⟩
  | .hbm, ⟨11, _⟩ => ⟨S8x1024x1, .i32⟩
  | .hbm, ⟨12, _⟩ => ⟨S8x1024, .i32⟩
  | .hbm, ⟨13, _⟩ => ⟨S_, .i32⟩
  | .hbm, ⟨14, _⟩ => ⟨S8x1024, .i32⟩
  | .hbm, ⟨15, _⟩ => ⟨S8x1024, .i1⟩
  | .hbm, ⟨16, _⟩ => ⟨S_, .i32⟩
  | .hbm, ⟨17, _⟩ => ⟨S8x1024, .i32⟩
  | .hbm, ⟨18, _⟩ => ⟨S8x1024, .i32⟩
  | .hbm, ⟨19, _⟩ => ⟨S8x1024, .i32⟩
  | .hbm, ⟨20, _⟩ => ⟨S_, .i32⟩
  | .hbm, ⟨21, _⟩ => ⟨S8x1024, .i32⟩
  | .hbm, ⟨22, _⟩ => ⟨S8x1024, .i1⟩
  | .hbm, ⟨23, _⟩ => ⟨S_, .i32⟩
  | .hbm, ⟨24, _⟩ => ⟨S8x1024, .i32⟩
  | .hbm, ⟨25, _⟩ => ⟨S8x1024, .i32⟩
  | .hbm, ⟨26, _⟩ => ⟨S8x1024, .i32⟩
  | .hbm, ⟨27, _⟩ => ⟨S_, .i32⟩
  | .hbm, ⟨28, _⟩ => ⟨S8x1024, .i32⟩
  | .hbm, ⟨29, _⟩ => ⟨S8x1024, .i1⟩
  | .hbm, ⟨30, _⟩ => ⟨S_, .i32⟩
  | .hbm, ⟨31, _⟩ => ⟨S8x1024, .i32⟩
  | .hbm, ⟨32, _⟩ => ⟨S8x1024, .i32⟩
  | .hbm, ⟨33, _⟩ => ⟨S8x1024, .i32⟩
  | .hbm, ⟨34, _⟩ => ⟨S8x1024x1, .i32⟩
  | .hbm, ⟨35, _⟩ => ⟨S8x1024x1, .i32⟩
  | .hbm, ⟨36, _⟩ => ⟨S8x1024x1, .i32⟩
  | .hbm, ⟨37, _⟩ => ⟨S8x1024x3, .i32⟩
  | .hbm, ⟨38, _⟩ => ⟨S8x512x512, .i32⟩
  | .hbm, ⟨39, _⟩ => ⟨S8x512x512, .i32⟩
  | .hbm, ⟨40, _⟩ => ⟨S8x8x128, .f32⟩
  | .hbm, ⟨41, _⟩ => ⟨S8x8x128, .f32⟩
  | .hbm, ⟨42, _⟩ => ⟨S8x1x1, .f32⟩
  | .hbm, ⟨43, _⟩ => ⟨S8, .f32⟩
  | .hbm, ⟨44, _⟩ => ⟨S8x1x1, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S1x16x128x512, .f32⟩
  | .local _ .vmem, ⟨1, _⟩ => ⟨S1x16x128x512, .f32⟩
  | .local _ .vmem, ⟨2, _⟩ => ⟨S1x128x512, .i32⟩
  | .local _ .vmem, ⟨3, _⟩ => ⟨S1x128x512, .i32⟩
  | .local _ .vmem, ⟨4, _⟩ => ⟨S1x128x512, .i32⟩
  | .local _ .vmem, ⟨5, _⟩ => ⟨S1x128x512, .i32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S8_S8x1_0 : S8.BroadcastsInDim S8x1 (![0] : Fin 1 → Fin S8x1.rank)
  bcast_S8x1_S8x1024_0_1 : S8x1.BroadcastsInDim S8x1024 (![0, 1] : Fin 2 → Fin S8x1024.rank)
  bcast_S_S8x512x512 : S_.BroadcastsInDim S8x512x512 (![] : Fin 0 → Fin S8x512x512.rank)
  slices_S8x1024x2_S8x1024x1_0_0_0 : S8x1024x2.Slices ![0, 0, 0] S8x1024x1
  shapeCasts_S8x1024x1_S8x1024 : S8x1024x1.ShapeCasts S8x1024
  slices_S8x1024x2_S8x1024x1_0_0_1 : S8x1024x2.Slices ![0, 0, 1] S8x1024x1
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  concatenates_S8x1024x1_S8x1024x1_S8x1024x1_S8x1024x3_d2 : Shape.Concatenates [S8x1024x1, S8x1024x1, S8x1024x1] S8x1024x3 2
  natLt_1_32 : 1 < 32
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x16x128x512_S1x16x128x512_0_0_0_0 : ∀ a, (![0, 0, 0, 0] : Fin 4 → Nat) a + S1x16x128x512.size a ≤ S1x16x128x512.size a
  h_S1x16x128x512 : 0 < S1x16x128x512.numel
  shapeCasts_S1x16x128x512_S16x128x512 : S1x16x128x512.ShapeCasts S16x128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  reduces_S16x128x512_S128x512 : S16x128x512.Reduces [0] S128x512
  shapeCasts_S128x512_S1x128x512 : S128x512.ShapeCasts S1x128x512
  broadcasts_S1x128x512_S16x128x512 : S1x128x512.Broadcasts S16x128x512
  iota_S16x128x512_d0_w32 : S16x128x512.Iotas .tc 32 [0]
  shapeCasts_S1x128x512_S1x128x512 : S1x128x512.ShapeCasts S1x128x512
  reduces_S128x512_S128 : S128x512.Reduces [1] S128
  shapeCasts_S128_S128x1 : S128.ShapeCasts S128x1
  reduces_S128x1_S1 : S128x1.Reduces [0] S1
  shapeCasts_S1_S1x1 : S1.ShapeCasts S1x1
  shapeCasts_S1x1_S1x1 : S1x1.ShapeCasts S1x1
  broadcasts_S1x1_S8x128 : S1x1.Broadcasts S8x128
  slices_S8x8x128_S8x1x1_0_0_0 : S8x8x128.Slices ![0, 0, 0] S8x1x1
  shapeCasts_S8x1x1_S8 : S8x1x1.ShapeCasts S8
  bcast_S_S8 : S_.BroadcastsInDim S8 (![] : Fin 0 → Fin S8.rank)
  reducesTo_S8_S_d0 : S8.ReducesTo [0] S_
  h_S_ : 0 < S_.numel
  scatter_S8x512x512_S8x1024x3_S8x1024_n_012_012_2_wf : ScatterDims.WF S8x512x512 S8x1024x3 S8x1024 [] [0, 1, 2] [0, 1, 2] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x512.size a ≤ S8x16x512x512.size a
  hwx0_0 : ∀ i : grid0.Coords, EltTy.bits .f32 = 32 ∨ (Rect.block (s := S8x16x512x512) S1x16x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x512x512.size a
  hwx0_1 : ∀ i : grid0.Coords, EltTy.bits .i32 = 32 ∨ (Rect.block (s := S8x512x512) S1x128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S8x512x512.size a
  hwx0_2 : ∀ i : grid0.Coords, EltTy.bits .i32 = 32 ∨ (Rect.block (s := S8x512x512) S1x128x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S8x8x128.size a
  hwx0_4 : ∀ i : grid0.Coords, EltTy.bits .f32 = 32 ∨ (Rect.block (s := S8x8x128) S1x8x128.size (cc0_transform_4 i) (hinb0_4 i)).WholeWords (EltTy.packing .f32)

variable [Facts₀]

def scatter_S8x512x512_S8x1024x3_S8x1024_n_012_012_2 : ScatterDims S8x512x512 S8x1024x3 S8x1024 where
  updateWindowDims := []
  insertedWindowDims := [0, 1, 2]
  scatterDimsToOperandDims := [0, 1, 2]
  indexVectorDim := 2
  wf := scatter_S8x512x512_S8x1024x3_S8x1024_n_012_012_2_wf

abbrev win0_0 : Pipeline.Window sig grid0 :=
  Pipeline.Window.ofSpec (Memref.whole main_arg0) S1x16x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x16x512x512 : Shape := ⟨4, ![8, 16, 512, 512]⟩
abbrev S8x512x512 : Shape := ⟨3, ![8, 512, 512]⟩
abbrev S8x1024x2 : Shape := ⟨3, ![8, 1024, 2]⟩
abbrev S8x1024 : Shape := ⟨2, ![8, 1024]⟩
abbrev S8 : Shape := ⟨1, ![8]⟩
abbrev S8x1 : Shape := ⟨2, ![8, 1]⟩
abbrev S_ : Shape := ⟨0, ![]⟩
abbrev S8x1024x1 : Shape := ⟨3, ![8, 1024, 1]⟩
abbrev S8x1024x3 : Shape := ⟨3, ![8, 1024, 3]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S8x16x512x512, .f32⟩
  | .hbm, ⟨1, _⟩ => ⟨S8x512x512, .i1⟩
  | .hbm, ⟨2, _⟩ => ⟨S8x1024x2, .i32⟩
  | .hbm, ⟨3, _⟩ => ⟨S8x1024, .i32⟩
  | .hbm, ⟨4, _⟩ => ⟨S8, .i32⟩
  | .hbm, ⟨5, _⟩ => ⟨S8x1, .i32⟩
  | .hbm, ⟨6, _⟩ => ⟨S8x1024, .i32⟩
  | .hbm, ⟨7, _⟩ => ⟨S_, .i32⟩
  | .hbm, ⟨8, _⟩ => ⟨S8x512x512, .i32⟩
  | .hbm, ⟨9, _⟩ => ⟨S8x1024x1, .i32⟩
  | .hbm, ⟨10, _⟩ => ⟨S8x1024, .i32⟩
  | .hbm, ⟨11, _⟩ => ⟨S8x1024x1, .i32⟩
  | .hbm, ⟨12, _⟩ => ⟨S8x1024, .i32⟩
  | .hbm, ⟨13, _⟩ => ⟨S_, .i32⟩
  | .hbm, ⟨14, _⟩ => ⟨S8x1024, .i32⟩
  | .hbm, ⟨15, _⟩ => ⟨S8x1024, .i1⟩
  | .hbm, ⟨16, _⟩ => ⟨S_, .i32⟩
  | .hbm, ⟨17, _⟩ => ⟨S8x1024, .i32⟩
  | .hbm, ⟨18, _⟩ => ⟨S8x1024, .i32⟩
  | .hbm, ⟨19, _⟩ => ⟨S8x1024, .i32⟩
  | .hbm, ⟨20, _⟩ => ⟨S_, .i32⟩
  | .hbm, ⟨21, _⟩ => ⟨S8x1024, .i32⟩
  | .hbm, ⟨22, _⟩ => ⟨S8x1024, .i1⟩
  | .hbm, ⟨23, _⟩ => ⟨S_, .i32⟩
  | .hbm, ⟨24, _⟩ => ⟨S8x1024, .i32⟩
  | .hbm, ⟨25, _⟩ => ⟨S8x1024, .i32⟩
  | .hbm, ⟨26, _⟩ => ⟨S8x1024, .i32⟩
  | .hbm, ⟨27, _⟩ => ⟨S_, .i32⟩
  | .hbm, ⟨28, _⟩ => ⟨S8x1024, .i32⟩
  | .hbm, ⟨29, _⟩ => ⟨S8x1024, .i1⟩
  | .hbm, ⟨30, _⟩ => ⟨S_, .i32⟩
  | .hbm, ⟨31, _⟩ => ⟨S8x1024, .i32⟩
  | .hbm, ⟨32, _⟩ => ⟨S8x1024, .i32⟩
  | .hbm, ⟨33, _⟩ => ⟨S8x1024, .i32⟩
  | .hbm, ⟨34, _⟩ => ⟨S8x1024x1, .i32⟩
  | .hbm, ⟨35, _⟩ => ⟨S8x1024x1, .i32⟩
  | .hbm, ⟨36, _⟩ => ⟨S8x1024x1, .i32⟩
  | .hbm, ⟨37, _⟩ => ⟨S8x1024x3, .i32⟩
  | .hbm, ⟨38, _⟩ => ⟨S8x512x512, .i32⟩
  | .hbm, ⟨39, _⟩ => ⟨S_, .f32⟩
  | .hbm, ⟨40, _⟩ => ⟨S8x512x512, .f32⟩
  | .hbm, ⟨41, _⟩ => ⟨S_, .f32⟩
  | .hbm, ⟨42, _⟩ => ⟨S8x512x512, .f32⟩
  | .hbm, ⟨43, _⟩ => ⟨S8x512x512, .f32⟩
  | .hbm, ⟨44, _⟩ => ⟨S8x1x512x512, .f32⟩
  | .hbm, ⟨45, _⟩ => ⟨S8x16x512x512, .f32⟩
  | .hbm, ⟨46, _⟩ => ⟨S8x16x512x512, .f32⟩
  | .hbm, ⟨47, _⟩ => ⟨S8x16x512x512, .f32⟩
  | .hbm, ⟨48, _⟩ => ⟨S_, .f32⟩
  | .hbm, ⟨49, _⟩ => ⟨S8x512x512, .f32⟩
  | .hbm, ⟨50, _⟩ => ⟨S8x1x512x512, .f32⟩
  | .hbm, ⟨51, _⟩ => ⟨S8x1x512x512, .f32⟩
  | .hbm, ⟨52, _⟩ => ⟨S8x16x512x512, .f32⟩
  | .hbm, ⟨53, _⟩ => ⟨S8x16x512x512, .f32⟩
  | .hbm, ⟨54, _⟩ => ⟨S8x1x512x512, .i32⟩
  | .hbm, ⟨55, _⟩ => ⟨S_, .i32⟩
  | .hbm, ⟨56, _⟩ => ⟨S8x1x512x512, .i32⟩
  | .hbm, ⟨57, _⟩ => ⟨S8x1x512x512, .i1⟩
  | .hbm, ⟨58, _⟩ => ⟨S_, .i32⟩
  | .hbm, ⟨59, _⟩ => ⟨S8x1x512x512, .i32⟩
  | .hbm, ⟨60, _⟩ => ⟨S8x1x512x512, .i32⟩
  | .hbm, ⟨61, _⟩ => ⟨S8x1x512x512, .i32⟩
  | .hbm, ⟨62, _⟩ => ⟨S8x1x512x512x1, .i32⟩
  | .hbm, ⟨63, _⟩ => ⟨S1, .i32⟩
  | .hbm, ⟨64, _⟩ => ⟨S_, .i32⟩
  | .hbm, ⟨65, _⟩ => ⟨S8x1x512x512x1, .i32⟩
  | .hbm, ⟨66, _⟩ => ⟨S8x1x512x512x1, .i1⟩
  | .hbm, ⟨67, _⟩ => ⟨S1x1x1x1x1, .i32⟩
  | .hbm, ⟨68, _⟩ => ⟨S8x1x512x512x1, .i32⟩
  | .hbm, ⟨69, _⟩ => ⟨S8x1x512x512x1, .i1⟩
  | .hbm, ⟨70, _⟩ => ⟨S8x1x512x512x1, .i1⟩
  | .hbm, ⟨71, _⟩ => ⟨S_, .i1⟩
  | .hbm, ⟨72, _⟩ => ⟨S8x1x512x512, .i1⟩
  | .hbm, ⟨73, _⟩ => ⟨S8x1x512x512, .f32⟩
  | .hbm, ⟨74, _⟩ => ⟨S_, .f32⟩
  | .hbm, ⟨75, _⟩ => ⟨S8x1x512x512, .f32⟩
  | .hbm, ⟨76, _⟩ => ⟨S8x1x512x512, .f32⟩
  | .hbm, ⟨77, _⟩ => ⟨S8x512x512, .f32⟩
  | .hbm, ⟨78, _⟩ => ⟨S8x512x512, .f32⟩
  | .hbm, ⟨79, _⟩ => ⟨S8x512x512, .f32⟩
  | .hbm, ⟨80, _⟩ => ⟨S_, .f32⟩
  | .hbm, ⟨81, _⟩ => ⟨S8, .f32⟩
  | .hbm, ⟨82, _⟩ => ⟨S_, .f32⟩
  | .hbm, ⟨83, _⟩ => ⟨S8, .f32⟩
  | .hbm, ⟨84, _⟩ => ⟨S8, .f32⟩
  | .hbm, ⟨85, _⟩ => ⟨S8x512x512, .f32⟩
  | .hbm, ⟨86, _⟩ => ⟨S_, .f32⟩
  | .hbm, ⟨87, _⟩ => ⟨S8, .f32⟩
  | .hbm, ⟨88, _⟩ => ⟨S8, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_call0_cst_0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_cst_1 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_v28 : Ref sig .tc := ⟨.hbm, 53, rfl⟩
abbrev main_v29 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_cst : Ref sig .tc := ⟨.hbm, 74, rfl⟩
abbrev main_call1_v14 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst : Ref sig .tc := ⟨.hbm, 80, rfl⟩
abbrev main_v34 : Ref sig .tc := ⟨.hbm, 81, rfl⟩
abbrev main_cst_6 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_7 : Ref sig .tc := ⟨.hbm, 86, rfl⟩
abbrev main_v38 : Ref sig .tc := ⟨.hbm, 87, rfl⟩
abbrev main_v39 : Ref sig .tc := ⟨.hbm, 88, rfl⟩
abbrev main_cst_8 : Ref sig .tc := ⟨.hbm, 89, rfl⟩
abbrev main_v40 : Ref sig .tc := ⟨.hbm, 90, rfl⟩
abbrev main_cst_9 : Ref sig .tc := ⟨.hbm, 91, rfl⟩
abbrev main_v41 : Ref sig .tc := ⟨.hbm, 92, rfl⟩

abbrev nD : Nat := 1
abbrev τ : Topo := Topo.v7x

variable {F : FTy → Type} [FloatOps F]

class Facts₀ : Prop where
  bcast_S8_S8x1_0 : S8.BroadcastsInDim S8x1 (![0] : Fin 1 → Fin S8x1.rank)
  bcast_S8x1_S8x1024_0_1 : S8x1.BroadcastsInDim S8x1024 (![0, 1] : Fin 2 → Fin S8x1024.rank)
  bcast_S_S8x512x512 : S_.BroadcastsInDim S8x512x512 (![] : Fin 0 → Fin S8x512x512.rank)
  slices_S8x1024x2_S8x1024x1_0_0_0 : S8x1024x2.Slices ![0, 0, 0] S8x1024x1
  shapeCasts_S8x1024x1_S8x1024 : S8x1024x1.ShapeCasts S8x1024
  slices_S8x1024x2_S8x1024x1_0_0_1 : S8x1024x2.Slices ![0, 0, 1] S8x1024x1
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  concatenates_S8x1024x1_S8x1024x1_S8x1024x1_S8x1024x3_d2 : Shape.Concatenates [S8x1024x1, S8x1024x1, S8x1024x1] S8x1024x3 2
  reducesTo_S8x16x512x512_S8x512x512_d1 : S8x16x512x512.ReducesTo [1] S8x512x512
  h_S_ : 0 < S_.numel
  bcast_S8x512x512_S8x1x512x512_0_2_3 : S8x512x512.BroadcastsInDim S8x1x512x512 (![0, 2, 3] : Fin 3 → Fin S8x1x512x512.rank)
  bcast_S8x1x512x512_S8x16x512x512_0_1_2_3 : S8x1x512x512.BroadcastsInDim S8x16x512x512 (![0, 1, 2, 3] : Fin 4 → Fin S8x16x512x512.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  reducesTo_S8x512x512_S8_d1_2 : S8x512x512.ReducesTo [1, 2] S8
  bcast_S_S8 : S_.BroadcastsInDim S8 (![] : Fin 0 → Fin S8.rank)
  reducesTo_S8_S_d0 : S8.ReducesTo [0] S_
  scatter_S8x512x512_S8x1024x3_S8x1024_n_012_012_2_wf : ScatterDims.WF S8x512x512 S8x1024x3 S8x1024 [] [0, 1, 2] [0, 1, 2] 2
  gather_S8x16x512x512_S8x1x512x512x1_S8x1x512x512_n_1_023_023_1_4_1111_wf : GatherDims.WF S8x16x512x512 S8x1x512x512x1 S8x1x512x512 [] [1] [0, 2, 3] [1] [0, 2, 3] 4 ![1, 1, 1, 1]

variable [Facts₀]

def scatter_S8x512x512_S8x1024x3_S8x1024_n_012_012_2 : ScatterDims S8x512x512 S8x1024x3 S8x1024 where
  updateWindowDims := []
  insertedWindowDims := [0, 1, 2]
  scatterDimsToOperandDims := [0, 1, 2]
  indexVectorDim := 2
  wf := scatter_S8x512x512_S8x1024x3_S8x1024_n_012_012_2_wf
def gather_S8x16x512x512_S8x1x512x512x1_S8x1x512x512_n_1_023_023_1_4_1111 : GatherDims S8x16x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x16x512x512_S8x1x512x512x1_S8x1x512x512_n_1_023_023_1_4_1111_wf

class Facts : Prop extends Facts₀ where

variable [Facts]
-- ==== Proof.K.Kit.lean ====
/-
  The cross-entropy kernel's program around its one region: what the region finds in each array (the host lines
  before it applied to the launch memory), that the lines before and after it leave the four argument arrays alone,
  each window's block at a grid point, and how a run that ends with every array at the pipeline's account of it
  gives back the arguments unchanged.  The kernel resets its two accumulator blocks at the first tile of a batch
  row (second grid coordinate 0) and adds one tile's partial sums at every tile.
-/
import proofs.«401166_j78975858639700_2_alg».proof.Proof.Gen.Kernel.Launch
import proofs.«401166_j78975858639700_2_alg».proof.Proof.Gen.Kernel.Skeleton
import proofs.«401166_j78975858639700_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch memory after the host lines before the region
    (the label grid scattered from the edge list, the mask widened to 32-bit words). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: it reduces to the
    region continued by the later lines, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the five arrays the pipeline stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes the logits: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor the mask. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor the edge endpoints. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor the edge labels. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`, and no window stages it: it ends as the region found it, which is as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and no window stages it: it ends as the region found it, which is as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`, and no window stages it: it ends as the region found it, which is as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments unchanged, from a run that accounts for every array -/

/-- For any proof data whose arrays are the region-entry contents: a run that ends with every staged array at the
    pipeline's account of it and every other buffer as the later host lines leave it has the four argument arrays
    as launched — the logits are a staged input, which the pipeline only reads; the mask, the endpoints and the labels
    are staged by no window and written by no host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's one branch -/

/-- The body's branch condition from the grid coordinates: the tile index (second coordinate) is 0. -/
abbrev cond0_0 (i : grid0.Coords) : Prop := (Scalar.cmpi .ne (Scalar.extui (Scalar.cmpi .eq (BitVec.ofNat 32 (i 1).val) 0#32)) 0#32) = 1#1
/-- Over the 8 × 4 grid it holds exactly at the points ≡ 0 (mod 4): the first tile of each batch row. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs the body is called with -/

/-- One staging buffer of each accumulator window, through which its contents are stated. -/
abbrev VO0_3 : View sig .tc .vmem S1x8x128 .f32 := (Memref.whole cc0_stg3_0 : Memref sig .tc .vmem S1x8x128 .f32).view
abbrev VO0_4 : View sig .tc .vmem S1x8x128 .f32 := (Memref.whole cc0_stg4_0 : Memref sig .tc .vmem S1x8x128 .f32).view
abbrev ms0_0 (t : Fin cfg0.N) : Memref sig .tc .vmem S1x16x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)

end Cert.Kernel.Hand

end
-- ==== Proof.K.RunA.lean ====
/-
  The kernel body at the first tile of a batch row (tile index 0): on whole staging memrefs — the logits', the mask's
  and the label grid's blocks at their contents, the two accumulator blocks at anything — it runs to the end, leaves
  the three inputs as they were, and leaves each accumulator block with the pieces its stores wrote (the zero fill, then
  the tile's partial sum added to what was read back).  The pieces are found by running the body.
-/
import proofs.«401166_j78975858639700_2_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body when the tile index is 0 (the reset is taken). -/
noncomputable def kernelRun0_A (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S1x16x128x512 .f32) (x1 : Vec F S1x128x512 .i32) (x2 : Vec F S1x128x512 .i32) :
    Σ' (L3 : List (View.Piece (Elt F) S1x8x128 .f32)), { L4 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__ce_kernel i arg2 harg2 arg3 harg3 arg4 harg4 arg5 harg5 arg6 harg6) K } := by
  refine ⟨?_, ?_, fun E K => ?run⟩
  case run =>
    simp only [cc0__ce_kernel_eq_skeleton]; unfold cc0__ce_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Hand

end
-- ==== Proof.K.RunB.lean ====
/-
  The kernel body at a later tile of a batch row (tile index not 0): on whole staging memrefs — the three input
  blocks at their contents, the two accumulator blocks at the running sums the tiles before left — it runs to the end,
  leaves the inputs as they were, and leaves each accumulator block with the one piece its store wrote (the tile's
  partial sum added to the running sum).
-/
import proofs.«401166_j78975858639700_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body when the tile index is not 0 (no reset). -/
noncomputable def kernelRun0_B (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S1x16x128x512 .f32) (x1 : Vec F S1x128x512 .i32) (x2 : Vec F S1x128x512 .i32) (xo3 : Vec F S1x8x128 .f32) (xo4 : Vec F S1x8x128 .f32) :
    Σ' (L3 : List (View.Piece (Elt F) S1x8x128 .f32)), { L4 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__ce_kernel i arg2 harg2 arg3 harg3 arg4 harg4 arg5 harg5 arg6 harg6) K } := by
  refine ⟨?_, ?_, fun E K => ?run⟩
  case run =>
    simp only [cc0__ce_kernel_eq_skeleton]; unfold cc0__ce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Hand

end
-- ==== Proof.K.Frame.lean ====
/-
  The cross-entropy kernel's region runs to the end at every grid point and the program leaves its arguments
  unchanged.  The two accumulator blocks (the batch row's summed weighted loss and its count of valid positions, each
  broadcast over an 8 × 128 block) are reset at the first tile of a batch row and added to at each of its four tiles;
  the pipeline writes them back only after the fourth, so between the tiles of a row each block still holds what the
  tile before left.  What the blocks hold after each grid point is therefore defined by recursion on the point: the
  reset case's contents at a first tile, the other case's contents over the point before otherwise.
-/
import proofs.«401166_j78975858639700_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator blocks -/

/-- At a first tile the stores into the loss block (the zero fill, then the sum) cover it. -/
theorem cover0_A_3 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S1x16x128x512 .f32) (x1 : Vec F S1x128x512 .i32) (x2 : Vec F S1x128x512 .i32) (y : S1x8x128.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S1x8x128.size (by sl_kernel_rfl) y
/-- And so do the stores into the count block. -/
theorem cover0_A_4 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S1x16x128x512 .f32) (x1 : Vec F S1x128x512 .i32) (x2 : Vec F S1x128x512 .i32) (y : S1x8x128.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S1x8x128.size (by sl_kernel_rfl) y

/-- What a first tile leaves in the loss block: its stores read back. -/
def out0_A_3 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S1x16x128x512 .f32) (x1 : Vec F S1x128x512 .i32) (x2 : Vec F S1x128x512 .i32) : Vec F S1x8x128 .f32 :=
  VO0_3.read (Elt F) (VO0_3.writes (Elt F) VO0_3.junk (kernelRun0_A c i arg2 harg2 arg3 harg3 arg4 harg4 arg5 harg5 arg6 harg6 hc0 x0 x1 x2).1)
/-- What a first tile leaves in the count block. -/
def out0_A_4 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S1x16x128x512 .f32) (x1 : Vec F S1x128x512 .i32) (x2 : Vec F S1x128x512 .i32) : Vec F S1x8x128 .f32 :=
  VO0_4.read (Elt F) (VO0_4.writes (Elt F) VO0_4.junk (kernelRun0_A c i arg2 harg2 arg3 harg3 arg4 harg4 arg5 harg5 arg6 harg6 hc0 x0 x1 x2).2.1)

/-- At a later tile the one store into the loss block covers it. -/
theorem cover0_B_3 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S1x16x128x512 .f32) (x1 : Vec F S1x128x512 .i32) (x2 : Vec F S1x128x512 .i32) (xo3 : Vec F S1x8x128 .f32) (xo4 : Vec F S1x8x128 .f32) (y : S1x8x128.Idx) :
    ∃ pc ∈ (kernelRun0_B c i arg2 harg2 arg3 harg3 arg4 harg4 arg5 harg5 arg6 harg6 hc0 x0 x1 x2 xo3 xo4).1, y ∈ pc.1.set :=
  View.cover_of_tiledL (kernelRun0_B c i arg2 harg2 arg3 harg3 arg4 harg4 arg5 harg5 arg6 harg6 hc0 x0 x1 x2 xo3 xo4).1 S1x8x128.size (by sl_kernel_rfl) y
/-- And the one store into the count block covers that. -/
theorem cover0_B_4 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S1x16x128x512 .f32) (x1 : Vec F S1x128x512 .i32) (x2 : Vec F S1x128x512 .i32) (xo3 : Vec F S1x8x128 .f32) (xo4 : Vec F S1x8x128 .f32) (y : S1x8x128.Idx) :
    ∃ pc ∈ (kernelRun0_B c i arg2 harg2 arg3 harg3 arg4 harg4 arg5 harg5 arg6 harg6 hc0 x0 x1 x2 xo3 xo4).2.1, y ∈ pc.1.set :=
  View.cover_of_tiledL (kernelRun0_B c i arg2 harg2 arg3 harg3 arg4 harg4 arg5 harg5 arg6 harg6 hc0 x0 x1 x2 xo3 xo4).2.1 S1x8x128.size (by sl_kernel_rfl) y

/-- What a later tile leaves in the loss block, over the running contents `xo3`, `xo4`. -/
def out0_B_3 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S1x16x128x512 .f32) (x1 : Vec F S1x128x512 .i32) (x2 : Vec F S1x128x512 .i32) (xo3 : Vec F S1x8x128 .f32) (xo4 : Vec F S1x8x128 .f32) : Vec F S1x8x128 .f32 :=
  VO0_3.read (Elt F) (VO0_3.writes (Elt F) VO0_3.junk (kernelRun0_B c i arg2 harg2 arg3 harg3 arg4 harg4 arg5 harg5 arg6 harg6 hc0 x0 x1 x2 xo3 xo4).1)
/-- What a later tile leaves in the count block. -/
def out0_B_4 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S1x16x128x512 .f32) (x1 : Vec F S1x128x512 .i32) (x2 : Vec F S1x128x512 .i32) (xo3 : Vec F S1x8x128 .f32) (xo4 : Vec F S1x8x128 .f32) : Vec F S1x8x128 .f32 :=
  VO0_4.read (Elt F) (VO0_4.writes (Elt F) VO0_4.junk (kernelRun0_B c i arg2 harg2 arg3 harg3 arg4 harg4 arg5 harg5 arg6 harg6 hc0 x0 x1 x2 xo3 xo4).2.1)

/-! ## What the accumulator blocks hold after each grid point -/

/-- The pair (loss block, count block) after the body at position `n` of the grid's order: at a first tile
    (`n ≡ 0 mod 4`) what the reset case leaves; otherwise what the other case leaves over the pair at `n − 1`. -/
def outsAt0 (c : Dev nD) : (n : ℕ) → n < cfg0.N → Vec F S1x8x128 .f32 × Vec F S1x8x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩),
              out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 4 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2)

/-- At a first tile: the reset case's contents. -/
theorem outsAt0_A (c : Dev nD) (t : Fin cfg0.N) (h0 : t.val % 4 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
      out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)) := by
  obtain ⟨n, hn⟩ := t
  cases n with
  | zero => exact rfl
  | succ n => exact (dif_pos h0).trans rfl

/-- At a later tile: the other case's contents, over what the point before left. -/
theorem outsAt0_B (c : Dev nD) (t : Fin cfg0.N) (h0 : ¬t.val % 4 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2,
      out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- On core `c`: the arrays as the region finds them; after the body at point `t` each input's staging buffer at its
    block and the two accumulator blocks at `outsAt0`; nothing else tracked, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later tile the loss block's current staging buffer holds what the body left at the point before: the block was
    not written back in between (a write-back comes only after a row's fourth tile). -/
theorem before0_3_B (c : Dev nD) (t : Fin cfg0.N) (h0 : ¬t.val % 4 = 0) (d) :
    (dats m 0 c).before 3 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]
/-- The same for the count block. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).2 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the tile index says which case the point is in, and at
    a later tile the accumulator blocks hold what the point before left; so that case's run applies, and each
    accumulator block ends at its stores read back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 32 := lt_of_lt_of_eq t.isLt (show cfg0.N = 32 from N_0)
  by_cases h0 : t.val % 4 = 0
  · rw [outsAt0_A m c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    · unfold owns; iexists _; isplitr
      swap; · iexact H4
      ipureintro; exact View.read_writes_of_cover _ _ _ _ _ (cover0_A_4 c _ _ _ _ _ _ _ _ _ _ _ _ _ _ _)
  · rw [outsAt0_B m c t h0]
    dsimp only
    simp only [before0_3_B m c t h0, before0_4_B m c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    · unfold owns; iexists _; isplitr
      swap; · iexact H4
      ipureintro; exact View.read_writes_of_cover _ _ _ _ _ (cover0_B_4 c _ _ _ _ _ _ _ _ _ _ _ _ _ _ _ _ _)

/-- The pipeline's obligation on the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    each staged array at the pipeline's account of it and every other buffer as the later host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KI.Kit.lean ====
/-
  The cross-entropy kernel's program around its one region: what the region finds in each array (the host lines
  before it applied to the launch memory), that the lines before and after it leave the four argument arrays alone,
  each window's block at a grid point, and how a run that ends with every array at the pipeline's account of it
  gives back the arguments unchanged.  The kernel resets its two accumulator blocks at the first tile of a batch
  row (second grid coordinate 0) and adds one tile's partial sums at every tile.
-/
import proofs.«401166_j78975858639700_2_alg».proof.Proof.Gen.KernelIdeal.Launch
import proofs.«401166_j78975858639700_2_alg».proof.Proof.Gen.KernelIdeal.Skeleton
import proofs.«401166_j78975858639700_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch memory after the host lines before the region
    (the label grid scattered from the edge list, the mask widened to 32-bit words). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: it reduces to the
    region continued by the later lines, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the five arrays the pipeline stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes the logits: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor the mask. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor the edge endpoints. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor the edge labels. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`, and no window stages it: it ends as the region found it, which is as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and no window stages it: it ends as the region found it, which is as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`, and no window stages it: it ends as the region found it, which is as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments unchanged, from a run that accounts for every array -/

/-- For any proof data whose arrays are the region-entry contents: a run that ends with every staged array at the
    pipeline's account of it and every other buffer as the later host lines leave it has the four argument arrays
    as launched — the logits are a staged input, which the pipeline only reads; the mask, the endpoints and the labels
    are staged by no window and written by no host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's one branch -/

/-- The body's branch condition from the grid coordinates: the tile index (second coordinate) is 0. -/
abbrev cond0_0 (i : grid0.Coords) : Prop := (Scalar.cmpi .ne (Scalar.extui (Scalar.cmpi .eq (BitVec.ofNat 32 (i 1).val) 0#32)) 0#32) = 1#1
/-- Over the 8 × 4 grid it holds exactly at the points ≡ 0 (mod 4): the first tile of each batch row. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs the body is called with -/

/-- One staging buffer of each accumulator window, through which its contents are stated. -/
abbrev VO0_3 : View sig .tc .vmem S1x8x128 .f32 := (Memref.whole cc0_stg3_0 : Memref sig .tc .vmem S1x8x128 .f32).view
abbrev VO0_4 : View sig .tc .vmem S1x8x128 .f32 := (Memref.whole cc0_stg4_0 : Memref sig .tc .vmem S1x8x128 .f32).view
abbrev ms0_0 (t : Fin cfg0.N) : Memref sig .tc .vmem S1x16x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KI.RunA.lean ====
/-
  The kernel body at the first tile of a batch row (tile index 0): on whole staging memrefs — the logits', the mask's
  and the label grid's blocks at their contents, the two accumulator blocks at anything — it runs to the end, leaves
  the three inputs as they were, and leaves each accumulator block with the pieces its stores wrote (the zero fill, then
  the tile's partial sum added to what was read back).  The pieces are found by running the body.
-/
import proofs.«401166_j78975858639700_2_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body when the tile index is 0 (the reset is taken). -/
noncomputable def kernelRun0_A (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S1x16x128x512 .f32) (x1 : Vec F S1x128x512 .i32) (x2 : Vec F S1x128x512 .i32) :
    Σ' (L3 : List (View.Piece (Elt F) S1x8x128 .f32)), { L4 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__ce_kernel i arg2 harg2 arg3 harg3 arg4 harg4 arg5 harg5 arg6 harg6) K } := by
  refine ⟨?_, ?_, fun E K => ?run⟩
  case run =>
    simp only [cc0__ce_kernel_eq_skeleton]; unfold cc0__ce_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Hand

end
-- ==== Proof.KI.RunB.lean ====
/-
  The kernel body at a later tile of a batch row (tile index not 0): on whole staging memrefs — the three input
  blocks at their contents, the two accumulator blocks at the running sums the tiles before left — it runs to the end,
  leaves the inputs as they were, and leaves each accumulator block with the one piece its store wrote (the tile's
  partial sum added to the running sum).
-/
import proofs.«401166_j78975858639700_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body when the tile index is not 0 (no reset). -/
noncomputable def kernelRun0_B (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S1x16x128x512 .f32) (x1 : Vec F S1x128x512 .i32) (x2 : Vec F S1x128x512 .i32) (xo3 : Vec F S1x8x128 .f32) (xo4 : Vec F S1x8x128 .f32) :
    Σ' (L3 : List (View.Piece (Elt F) S1x8x128 .f32)), { L4 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__ce_kernel i arg2 harg2 arg3 harg3 arg4 harg4 arg5 harg5 arg6 harg6) K } := by
  refine ⟨?_, ?_, fun E K => ?run⟩
  case run =>
    simp only [cc0__ce_kernel_eq_skeleton]; unfold cc0__ce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Hand

end
-- ==== Proof.KI.Frame.lean ====
/-
  The cross-entropy kernel's region runs to the end at every grid point and the program leaves its arguments
  unchanged.  The two accumulator blocks (the batch row's summed weighted loss and its count of valid positions, each
  broadcast over an 8 × 128 block) are reset at the first tile of a batch row and added to at each of its four tiles;
  the pipeline writes them back only after the fourth, so between the tiles of a row each block still holds what the
  tile before left.  What the blocks hold after each grid point is therefore defined by recursion on the point: the
  reset case's contents at a first tile, the other case's contents over the point before otherwise.
-/
import proofs.«401166_j78975858639700_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator blocks -/

/-- At a first tile the stores into the loss block (the zero fill, then the sum) cover it. -/
theorem cover0_A_3 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S1x16x128x512 .f32) (x1 : Vec F S1x128x512 .i32) (x2 : Vec F S1x128x512 .i32) (y : S1x8x128.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S1x8x128.size (by sl_kernel_rfl) y
/-- And so do the stores into the count block. -/
theorem cover0_A_4 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S1x16x128x512 .f32) (x1 : Vec F S1x128x512 .i32) (x2 : Vec F S1x128x512 .i32) (y : S1x8x128.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S1x8x128.size (by sl_kernel_rfl) y

/-- What a first tile leaves in the loss block: its stores read back. -/
def out0_A_3 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S1x16x128x512 .f32) (x1 : Vec F S1x128x512 .i32) (x2 : Vec F S1x128x512 .i32) : Vec F S1x8x128 .f32 :=
  VO0_3.read (Elt F) (VO0_3.writes (Elt F) VO0_3.junk (kernelRun0_A c i arg2 harg2 arg3 harg3 arg4 harg4 arg5 harg5 arg6 harg6 hc0 x0 x1 x2).1)
/-- What a first tile leaves in the count block. -/
def out0_A_4 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S1x16x128x512 .f32) (x1 : Vec F S1x128x512 .i32) (x2 : Vec F S1x128x512 .i32) : Vec F S1x8x128 .f32 :=
  VO0_4.read (Elt F) (VO0_4.writes (Elt F) VO0_4.junk (kernelRun0_A c i arg2 harg2 arg3 harg3 arg4 harg4 arg5 harg5 arg6 harg6 hc0 x0 x1 x2).2.1)

/-- At a later tile the one store into the loss block covers it. -/
theorem cover0_B_3 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S1x16x128x512 .f32) (x1 : Vec F S1x128x512 .i32) (x2 : Vec F S1x128x512 .i32) (xo3 : Vec F S1x8x128 .f32) (xo4 : Vec F S1x8x128 .f32) (y : S1x8x128.Idx) :
    ∃ pc ∈ (kernelRun0_B c i arg2 harg2 arg3 harg3 arg4 harg4 arg5 harg5 arg6 harg6 hc0 x0 x1 x2 xo3 xo4).1, y ∈ pc.1.set :=
  View.cover_of_tiledL (kernelRun0_B c i arg2 harg2 arg3 harg3 arg4 harg4 arg5 harg5 arg6 harg6 hc0 x0 x1 x2 xo3 xo4).1 S1x8x128.size (by sl_kernel_rfl) y
/-- And the one store into the count block covers that. -/
theorem cover0_B_4 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S1x16x128x512 .f32) (x1 : Vec F S1x128x512 .i32) (x2 : Vec F S1x128x512 .i32) (xo3 : Vec F S1x8x128 .f32) (xo4 : Vec F S1x8x128 .f32) (y : S1x8x128.Idx) :
    ∃ pc ∈ (kernelRun0_B c i arg2 harg2 arg3 harg3 arg4 harg4 arg5 harg5 arg6 harg6 hc0 x0 x1 x2 xo3 xo4).2.1, y ∈ pc.1.set :=
  View.cover_of_tiledL (kernelRun0_B c i arg2 harg2 arg3 harg3 arg4 harg4 arg5 harg5 arg6 harg6 hc0 x0 x1 x2 xo3 xo4).2.1 S1x8x128.size (by sl_kernel_rfl) y

/-- What a later tile leaves in the loss block, over the running contents `xo3`, `xo4`. -/
def out0_B_3 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S1x16x128x512 .f32) (x1 : Vec F S1x128x512 .i32) (x2 : Vec F S1x128x512 .i32) (xo3 : Vec F S1x8x128 .f32) (xo4 : Vec F S1x8x128 .f32) : Vec F S1x8x128 .f32 :=
  VO0_3.read (Elt F) (VO0_3.writes (Elt F) VO0_3.junk (kernelRun0_B c i arg2 harg2 arg3 harg3 arg4 harg4 arg5 harg5 arg6 harg6 hc0 x0 x1 x2 xo3 xo4).1)
/-- What a later tile leaves in the count block. -/
def out0_B_4 (c : Dev nD) (i : grid0.Coords) (arg2 : Memref sig .tc .vmem S1x16x128x512 .f32) (harg2 : arg2.IsWhole) (arg3 : Memref sig .tc .vmem S1x128x512 .i32) (harg3 : arg3.IsWhole) (arg4 : Memref sig .tc .vmem S1x128x512 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S1x16x128x512 .f32) (x1 : Vec F S1x128x512 .i32) (x2 : Vec F S1x128x512 .i32) (xo3 : Vec F S1x8x128 .f32) (xo4 : Vec F S1x8x128 .f32) : Vec F S1x8x128 .f32 :=
  VO0_4.read (Elt F) (VO0_4.writes (Elt F) VO0_4.junk (kernelRun0_B c i arg2 harg2 arg3 harg3 arg4 harg4 arg5 harg5 arg6 harg6 hc0 x0 x1 x2 xo3 xo4).2.1)

/-! ## What the accumulator blocks hold after each grid point -/

/-- The pair (loss block, count block) after the body at position `n` of the grid's order: at a first tile
    (`n ≡ 0 mod 4`) what the reset case leaves; otherwise what the other case leaves over the pair at `n − 1`. -/
def outsAt0 (c : Dev nD) : (n : ℕ) → n < cfg0.N → Vec F S1x8x128 .f32 × Vec F S1x8x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩),
              out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 4 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2)

/-- At a first tile: the reset case's contents. -/
theorem outsAt0_A (c : Dev nD) (t : Fin cfg0.N) (h0 : t.val % 4 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
      out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)) := by
  obtain ⟨n, hn⟩ := t
  cases n with
  | zero => exact rfl
  | succ n => exact (dif_pos h0).trans rfl

/-- At a later tile: the other case's contents, over what the point before left. -/
theorem outsAt0_B (c : Dev nD) (t : Fin cfg0.N) (h0 : ¬t.val % 4 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2,
      out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- On core `c`: the arrays as the region finds them; after the body at point `t` each input's staging buffer at its
    block and the two accumulator blocks at `outsAt0`; nothing else tracked, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later tile the loss block's current staging buffer holds what the body left at the point before: the block was
    not written back in between (a write-back comes only after a row's fourth tile). -/
theorem before0_3_B (c : Dev nD) (t : Fin cfg0.N) (h0 : ¬t.val % 4 = 0) (d) :
    (dats m 0 c).before 3 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]
/-- The same for the count block. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).2 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the tile index says which case the point is in, and at
    a later tile the accumulator blocks hold what the point before left; so that case's run applies, and each
    accumulator block ends at its stores read back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 32 := lt_of_lt_of_eq t.isLt (show cfg0.N = 32 from N_0)
  by_cases h0 : t.val % 4 = 0
  · rw [outsAt0_A m c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    · unfold owns; iexists _; isplitr
      swap; · iexact H4
      ipureintro; exact View.read_writes_of_cover _ _ _ _ _ (cover0_A_4 c _ _ _ _ _ _ _ _ _ _ _ _ _ _ _)
  · rw [outsAt0_B m c t h0]
    dsimp only
    simp only [before0_3_B m c t h0, before0_4_B m c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    · unfold owns; iexists _; isplitr
      swap; · iexact H4
      ipureintro; exact View.read_writes_of_cover _ _ _ _ _ (cover0_B_4 c _ _ _ _ _ _ _ _ _ _ _ _ _ _ _ _ _)

/-- The pipeline's obligation on the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    each staged array at the pipeline's account of it and every other buffer as the later host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KI.Pieces.lean ====
/-
  What the kernel body leaves in its two accumulator blocks, as values: at a later tile of a batch row the loss block
  holds what it held plus the tile's partial loss (the body's one store, whose loads read the whole staging buffers),
  and the count block what it held plus the tile's summed weights; at a row's first tile the same over the zero fill the
  reset stored a moment before (the body reads that fill back before it adds).
-/
import proofs.«401166_j78975858639700_2_alg».proof.Proof.KI.Frame
import Idealize.ShloMosaic.Lib.Pipeline.Value

noncomputable section

open Idealize.ShloMosaic Idealize.ShloMosaic.TcCoe Idealize.SL.Sem Idealize.ShloMosaic.Tactic
open Idealize.ShloMosaic.Pipeline (Dat)

namespace Cert.KernelIdeal.Hand

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later tile: the loss block ends at what it held plus the tile's partial loss. -/
theorem out_B_3 (c : Dev nD) (i : grid0.Coords) (a2 : Memref sig .tc .vmem S1x16x128x512 .f32) (h2 : a2.IsWhole) (a3 : Memref sig .tc .vmem S1x128x512 .i32) (h3 : a3.IsWhole) (a4 : Memref sig .tc .vmem S1x128x512 .i32) (h4 : a4.IsWhole) (a5 : Memref sig .tc .vmem S1x8x128 .f32) (h5 : a5.IsWhole) (a6 : Memref sig .tc .vmem S1x8x128 .f32) (h6 : a6.IsWhole) (hc : ¬cond0_0 i) (x0 : Vec F S1x16x128x512 .f32) (x1 : Vec F S1x128x512 .i32) (x2 : Vec F S1x128x512 .i32) (xo3 xo4 : Vec F S1x8x128 .f32) :
    out0_B_3 c i a2 h2 a3 h3 a4 h4 a5 h5 a6 h6 hc x0 x1 x2 xo3 xo4 = k0_pay1 (k0_pay6 x0 x1 x2) xo3 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x16x128x512) hz4, View.ld_unit_zero (S := S1x128x512) hz3, View.ld_unit_zero (S := S1x8x128) hz3]

/-- A later tile: the count block ends at what it held plus the tile's summed weights. -/
theorem out_B_4 (c : Dev nD) (i : grid0.Coords) (a2 : Memref sig .tc .vmem S1x16x128x512 .f32) (h2 : a2.IsWhole) (a3 : Memref sig .tc .vmem S1x128x512 .i32) (h3 : a3.IsWhole) (a4 : Memref sig .tc .vmem S1x128x512 .i32) (h4 : a4.IsWhole) (a5 : Memref sig .tc .vmem S1x8x128 .f32) (h5 : a5.IsWhole) (a6 : Memref sig .tc .vmem S1x8x128 .f32) (h6 : a6.IsWhole) (hc : ¬cond0_0 i) (x0 : Vec F S1x16x128x512 .f32) (x1 : Vec F S1x128x512 .i32) (x2 : Vec F S1x128x512 .i32) (xo3 xo4 : Vec F S1x8x128 .f32) :
    out0_B_4 c i a2 h2 a3 h3 a4 h4 a5 h5 a6 h6 hc x0 x1 x2 xo3 xo4 = k0_pay2 (k0_pay5 x1) xo4 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x16x128x512) hz4, View.ld_unit_zero (S := S1x128x512) hz3, View.ld_unit_zero (S := S1x8x128) hz3]

/-- A first tile: the loss block ends at the zero fill plus the tile's partial loss. -/
theorem out_A_3 (c : Dev nD) (i : grid0.Coords) (a2 : Memref sig .tc .vmem S1x16x128x512 .f32) (h2 : a2.IsWhole) (a3 : Memref sig .tc .vmem S1x128x512 .i32) (h3 : a3.IsWhole) (a4 : Memref sig .tc .vmem S1x128x512 .i32) (h4 : a4.IsWhole) (a5 : Memref sig .tc .vmem S1x8x128 .f32) (h5 : a5.IsWhole) (a6 : Memref sig .tc .vmem S1x8x128 .f32) (h6 : a6.IsWhole) (hc : cond0_0 i) (x0 : Vec F S1x16x128x512 .f32) (x1 : Vec F S1x128x512 .i32) (x2 : Vec F S1x128x512 .i32) :
    out0_A_3 c i a2 h2 a3 h3 a4 h4 a5 h5 a6 h6 hc x0 x1 x2 = k0_pay1 (k0_pay6 x0 x1 x2) (k0_pay3 (F := F)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread,
    View.ld_unit_zero (S := S1x16x128x512) hz4, View.ld_unit_zero (S := S1x128x512) hz3, View.ld_unit_zero (S := S1x8x128) hz3]

/-- A first tile: the count block ends at the zero fill plus the tile's summed weights. -/
theorem out_A_4 (c : Dev nD) (i : grid0.Coords) (a2 : Memref sig .tc .vmem S1x16x128x512 .f32) (h2 : a2.IsWhole) (a3 : Memref sig .tc .vmem S1x128x512 .i32) (h3 : a3.IsWhole) (a4 : Memref sig .tc .vmem S1x128x512 .i32) (h4 : a4.IsWhole) (a5 : Memref sig .tc .vmem S1x8x128 .f32) (h5 : a5.IsWhole) (a6 : Memref sig .tc .vmem S1x8x128 .f32) (h6 : a6.IsWhole) (hc : cond0_0 i) (x0 : Vec F S1x16x128x512 .f32) (x1 : Vec F S1x128x512 .i32) (x2 : Vec F S1x128x512 .i32) :
    out0_A_4 c i a2 h2 a3 h3 a4 h4 a5 h5 a6 h6 hc x0 x1 x2 = k0_pay2 (k0_pay5 x1) (k0_pay4 (F := F)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread,
    View.ld_unit_zero (S := S1x16x128x512) hz4, View.ld_unit_zero (S := S1x128x512) hz3, View.ld_unit_zero (S := S1x8x128) hz3]

end Cert.KernelIdeal.Hand

end
-- ==== Proof.Spec.lean ====
/-
  What both programs compute, as plain functions of the three arrays the loss depends on: the class scores
  `adj[b, c, i, j]`, the validity mask `mask[b, i, j]` and the label grid `ans[b, i, j]` (the labels scattered from the
  edge list; both programs build it by the same host lines, so it is a parameter here).

  At a position `(b, i, j)` with scores `a c = adj[b, c, i, j]`: `rowMax a` is the largest score, `rowLse a` the log of
  `∑ c, exp (a c − rowMax a)`, and the negative log-likelihood of the label is `(rowMax a + rowLse a) − a label`, the
  score at the label picked out by a sum over the classes of "the score if the class is the label, else 0".  A position
  counts with weight `valid` (the mask bit read as 0 or 1).  Per batch row the programs sum the weighted loss and the
  weights over all positions.
-/
import Idealize.ShloMosaic.PureOps.Ideal
import Idealize.ShloMosaic.Lib.ValueIdx

noncomputable section

namespace Cert.Spec

open Idealize.ShloMosaic Idealize.ShloMosaic.ValueIdx

/-- The scores' shape `[8, 16, 512, 512]` and the per-position shape `[8, 512, 512]`. -/
abbrev SAdj : Shape := ⟨4, ![8, 16, 512, 512]⟩
abbrev SGrid : Shape := ⟨3, ![8, 512, 512]⟩

/-- The sixteen class scores at a position. -/
def scores (adj : SAdj.Idx → EReal) (b : Fin 8) (i j : Fin 512) : Fin 16 → EReal := fun c => adj (ix4 b c i j)

/-- The largest of sixteen scores: the running maximum started at `−∞`. -/
def rowMax (a : Fin 16 → EReal) : EReal := (Finset.univ : Finset (Fin 16)).fold max ⊥ a

/-- The log of the sum of the exponentials of the scores shifted by their maximum. -/
def rowLse (a : Fin 16 → EReal) : EReal := Ideal.log (∑ c : Fin 16, Ideal.exp (a c - rowMax a))

/-- The score at the label, picked by comparing each class number (as a 32-bit word) with the label word. -/
def pick (a : Fin 16 → EReal) (lab : BitVec 32) : EReal := ∑ c : Fin 16, (if BitVec.ofNat 32 c.val = lab then a c else 0)

/-- The negative log-likelihood of the label at a position. -/
def nll (a : Fin 16 → EReal) (lab : BitVec 32) : EReal := (rowMax a + rowLse a) - pick a lab

/-- A mask bit as a weight: 0 or 1. -/
def valid (bit : BitVec 1) : EReal := ((bit.toNat : ℝ) : EReal)

/-- The kernel is handed the mask widened to 32-bit words and tests each word against zero: the same weight. -/
def validW (word : BitVec 32) : EReal := if word = 0#32 then 0 else 1

/-- The weighted loss at a position. -/
def term (adj : SAdj.Idx → EReal) (mask : SGrid.Idx → BitVec 1) (ans : SGrid.Idx → BitVec 32) (b : Fin 8) (i j : Fin 512) : EReal :=
  nll (scores adj b i j) (ans (ix3 b i j)) * valid (mask (ix3 b i j))

/-- A batch row's summed weighted loss. -/
def sumS (adj : SAdj.Idx → EReal) (mask : SGrid.Idx → BitVec 1) (ans : SGrid.Idx → BitVec 32) (b : Fin 8) : EReal :=
  ∑ i : Fin 512, ∑ j : Fin 512, term adj mask ans b i j

/-- A batch row's count of valid positions. -/
def sumC (mask : SGrid.Idx → BitVec 1) (b : Fin 8) : EReal :=
  ∑ i : Fin 512, ∑ j : Fin 512, valid (mask (ix3 b i j))

end Cert.Spec

end
-- ==== Proof.PointLaw.lean ====
/-
  The arithmetic both sides lean on, over the definitions of the specification: the largest of sixteen finite scores is
  finite; the one-hot sum picks the score at an in-range label; the kernel's grouping of the negative log-likelihood,
  `(max + lse) − score`, equals the reference's, `−((score − max) − lse)`, when the scores are finite (whatever the
  log-sum-exp is); a widened mask bit tests against zero as the bit's own value; and a sum over 512 rows is the sum over
  four tiles of 128 rows.
-/
import proofs.«401166_j78975858639700_2_alg».proof.Proof.Spec
import Mathlib.Data.EReal.Basic
import Mathlib.Algebra.BigOperators.Fin

noncomputable section

namespace Cert.Spec

open Idealize.ShloMosaic Idealize.ShloMosaic.ValueIdx

/-- The largest of sixteen finite scores is finite. -/
theorem rowMax_finite (a : Fin 16 → EReal) (h : ∀ c, a c ≠ ⊥ ∧ a c ≠ ⊤) : rowMax a ≠ ⊥ ∧ rowMax a ≠ ⊤ := by
  constructor
  · -- the maximum is at least the first score, which is not `−∞`
    intro hbot
    have h0 : a 0 ≤ rowMax a := by
      unfold rowMax
      exact (Finset.le_fold_max _).2 (Or.inr ⟨0, Finset.mem_univ _, le_rfl⟩)
    rw [hbot] at h0
    exact (h 0).1 (le_bot_iff.1 h0)
  · -- every score is below `+∞`, and so is the start of the running maximum
    have hlt : rowMax a < ⊤ := by
      unfold rowMax
      exact (Finset.fold_max_lt _).2 ⟨bot_lt_top, fun c _ => lt_top_iff_ne_top.2 (h c).2⟩
    exact ne_of_lt hlt

/-- Two class numbers below sixteen have the same 32-bit word only if they are equal. -/
private theorem ofNat_eq_iff (c l : Fin 16) : BitVec.ofNat 32 c.val = BitVec.ofNat 32 l.val ↔ c = l := by
  constructor
  · intro hcl
    have := congrArg BitVec.toNat hcl
    simp only [BitVec.toNat_ofNat] at this
    have hc := c.isLt
    have hl := l.isLt
    apply Fin.ext
    omega
  · intro hcl; rw [hcl]

/-- The one-hot sum at the word of an in-range class number is that class's score. -/
theorem pick_ofNat (a : Fin 16 → EReal) (l : Fin 16) : pick a (BitVec.ofNat 32 l.val) = a l := by
  unfold pick
  simp only [ofNat_eq_iff]
  rw [Finset.sum_ite_eq']
  simp

/-- For real `m` and `x` and any extended real `L`, `(m + L) − x = −((x − m) − L)`. -/
private theorem regroup (m x : ℝ) (L : EReal) : ((m : EReal) + L) - (x : EReal) = -(((x : EReal) - (m : EReal)) - L) := by
  induction L using EReal.rec with
  | bot => simp [← EReal.coe_sub]
  | coe r =>
    rw [← EReal.coe_add, ← EReal.coe_sub, ← EReal.coe_sub, ← EReal.coe_sub, ← EReal.coe_neg]
    congr 1
    ring
  | top => simp [← EReal.coe_sub]

/-- The kernel's grouping of the negative log-likelihood is the reference's, for finite scores and an in-range label. -/
theorem nll_eq_neg (a : Fin 16 → EReal) (h : ∀ c, a c ≠ ⊥ ∧ a c ≠ ⊤) (l : Fin 16) :
    nll a (BitVec.ofNat 32 l.val) = -((a l - rowMax a) - rowLse a) := by
  obtain ⟨hmb, hmt⟩ := rowMax_finite a h
  obtain ⟨m, hm⟩ : ∃ m : ℝ, (m : EReal) = rowMax a := ⟨(rowMax a).toReal, EReal.coe_toReal hmt hmb⟩
  obtain ⟨x, hx⟩ : ∃ x : ℝ, (x : EReal) = a l := ⟨(a l).toReal, EReal.coe_toReal (h l).2 (h l).1⟩
  unfold nll
  rw [pick_ofNat, ← hm, ← hx]
  exact regroup m x _

/-- A mask bit widened to a word tests against zero as the bit's own value. -/
theorem validW_setWidth (bit : BitVec 1) : validW (bit.setWidth 32) = valid bit := by
  have hb : bit = 0#1 ∨ bit = 1#1 := by
    revert bit; decide
  rcases hb with rfl | rfl
  · simp [validW, valid]
  · simp [validW, valid]

/-- A sum over 512 rows is the sum over four tiles of 128 rows. -/
theorem sum_tiles (g : Fin 512 → EReal) :
    ∑ n : Fin 4, ∑ r : Fin 128, g ⟨128 * n.val + r.val, by have := n.isLt; have := r.isLt; omega⟩ = ∑ i : Fin 512, g i := by
  rw [← Fintype.sum_prod_type']
  refine Fintype.sum_equiv (finProdFinEquiv (m := 4) (n := 128)) _ _ ?_
  rintro ⟨n, r⟩
  congr 1
  apply Fin.ext
  simp [finProdFinEquiv]
  omega

end Cert.Spec

end
-- ==== Proof.KI.Tile.lean ====
/-
  The kernel body's arithmetic on one tile (128 rows × 512 columns of one batch row), read at the extended reals: the
  value it adds to the loss block is the tile's summed weighted loss — at each position of the tile the specification's
  negative log-likelihood of the label times the weight of the widened mask word —, the value it adds to the count block
  is the tile's summed weights, each added entry by entry to what the block held, and the reset fills both blocks with 0.
-/
import proofs.«401166_j78975858639700_2_alg».proof.Proof.Gen.KernelIdeal.Skeleton
import proofs.«401166_j78975858639700_2_alg».proof.Proof.PointLaw
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen
open Idealize.ShloMosaic Idealize.ShloMosaic.ValueIdx Cert.Spec

/-- A tile's summed weighted loss, from the tile's blocks of the scores, the widened mask and the label grid. -/
def tileS (x0 : Vec Ideal S1x16x128x512 .f32) (x1 : Vec Ideal S1x128x512 .i32) (x2 : Vec Ideal S1x128x512 .i32) : EReal :=
  ∑ r : Fin 128, ∑ q : Fin 512, nll (fun c : Fin 16 => x0 (ix4 (0 : Fin 1) c r q)) (x2 (ix3 (0 : Fin 1) r q)) * validW (x1 (ix3 (0 : Fin 1) r q))

/-- A tile's summed weights. -/
def tileC (x1 : Vec Ideal S1x128x512 .i32) : EReal :=
  ∑ r : Fin 128, ∑ q : Fin 512, validW (x1 (ix3 (0 : Fin 1) r q))

/-! ## The store's layout: a `[1, 1]` value added to every entry of a `[1, 8, 128]` block -/

/-- A `[1, 1]` vector broadcast to `[8, 128]` reads its one entry everywhere. -/
theorem bcast_11_apply (v : FVec Ideal S1x1 .f32) (a : Fin 8) (b : Fin 128) :
    broadcastTo S8x128 v broadcasts_S1x1_S8x128 (ix2 a b) = v (ix2 (0 : Fin 1) (0 : Fin 1)) := by
  refine broadcastTo_apply v _ (ix2 a b) (ix2 (0 : Fin 1) (0 : Fin 1)) fun ax => ?_
  match ax with
  | ⟨0, _⟩ => rfl
  | ⟨1, _⟩ => rfl

/-- The block viewed `[8, 128]`, the `[1, 1]` value added to every entry, viewed `[1, 8, 128]` again: entry `(0, a, b)`
    is the block's entry plus the value. -/
theorem block_add_apply (w : FVec Ideal S1x1 .f32) (blk : Vec Ideal S1x8x128 .f32) (a : Fin 8) (b : Fin 128) :
    shapeCast S1x8x128 (addf (F := Ideal) (shapeCast S8x128 blk shapeCasts_S1x8x128_S8x128)
        (broadcastTo S8x128 (shapeCast S1x1 w shapeCasts_S1x1_S1x1) broadcasts_S1x1_S8x128))
      shapeCasts_S8x128_S1x8x128 (ix3 (0 : Fin 1) a b) = blk (ix3 (0 : Fin 1) a b) + w (ix2 (0 : Fin 1) (0 : Fin 1)) := by
  rw [shapeCast_ab_1ab_apply, addf_apply, shapeCast_1ab_ab_apply, bcast_11_apply, shapeCast_self]

/-! ## The weight vector at a position -/

/-- The weight vector at `(r, q)`: 1 where the widened mask word is not zero, else 0. -/
theorem pay5_apply (x1 : Vec Ideal S1x128x512 .i32) (r : Fin 128) (q : Fin 512) :
    k0_pay5 (F := Ideal) x1 (ix2 r q) = validW (x1 (ix3 (0 : Fin 1) r q)) := by
  unfold k0_pay5
  rw [sitofp_apply, extui_apply]
  show FloatOps.sitofp .f32 ((IntOp.cmpi .ne (shapeCast S128x512 x1 shapeCasts_S1x128x512_S128x512 (ix2 r q))
    (constantI S128x512 32 0#32 (ix2 r q))).setWidth 32) = _
  rw [shapeCast_1ab_ab_apply, constantI_apply]
  unfold validW
  by_cases hw : x1 (ix3 (0 : Fin 1) r q) = 0#32
  · rw [hw, if_pos rfl]
    show (((BitVec.setWidth 32 (IntOp.cmpi .ne (0#32) (0#32))).toInt : ℝ) : EReal) = 0
    simp [IntOp.cmpi]
  · rw [if_neg hw]
    show (((BitVec.setWidth 32 (IntOp.cmpi .ne (x1 (ix3 (0 : Fin 1) r q)) (0#32))).toInt : ℝ) : EReal) = 1
    have hne : (x1 (ix3 (0 : Fin 1) r q) != 0#32) = true := by simpa using hw
    simp [IntOp.cmpi, hne]

/-! ## The two lane sums: a `[128, 512]` vector summed along its columns, then along its rows, as a `[1, 1]` vector -/

/-- The sum along the columns at row `r`. -/
theorem laneSum_apply (v : FVec Ideal S128x512 .f32) (r : Fin 128) :
    multiReduction (F := Ideal) .add [1] S128 v 0x00000000#32 reduces_S128x512_S128 (.inl rfl) rfl (ix1 r)
      = ∑ q : Fin 512, v (ix2 r q) := by
  refine (Ideal.multiReduction_add_single v _ reduces_S128x512_S128 _ _ (ix1 r)).trans ?_
  refine Finset.sum_congr rfl fun q _ => congrArg v ?_
  funext a
  match a with
  | ⟨0, _⟩ => rfl
  | ⟨1, _⟩ => rfl

/-- A `[128]` vector viewed as a `[128, 1]` column reads, at `(r, u)`, its entry `r`. -/
theorem col_apply (v : FVec Ideal S128 .f32) (r : Fin 128) (u : Fin 1) :
    shapeCast S128x1 v shapeCasts_S128_S128x1 (ix2 r u) = v (ix1 r) :=
  shapeCast_apply v _ _ _ (by
    have hu : u.val = 0 := by omega
    rw [Shape.rowMajor_val_two, Shape.rowMajor_val_one]
    show r.val = r.val * 1 + u.val
    omega)

/-- The sum of a `[128, 1]` column along its rows. -/
theorem rowSum_apply (v : FVec Ideal S128x1 .f32) (u : Fin 1) :
    multiReduction (F := Ideal) .add [0] S1 v 0x00000000#32 reduces_S128x1_S1 (.inl rfl) rfl (ix1 u)
      = ∑ r : Fin 128, v (ix2 r u) := by
  refine (Ideal.multiReduction_add_single v _ reduces_S128x1_S1 _ _ (ix1 u)).trans ?_
  refine Finset.sum_congr rfl fun r _ => congrArg v ?_
  funext a
  match a with
  | ⟨0, _⟩ => rfl
  | ⟨1, _⟩ => rfl

/-- Both sums, the result viewed `[1, 1]`: the total over the rows and the columns. -/
theorem total_apply (v : FVec Ideal S128x512 .f32) :
    shapeCast S1x1 (multiReduction (F := Ideal) .add [0] S1
        (shapeCast S128x1 (multiReduction (F := Ideal) .add [1] S128 v 0x00000000#32 reduces_S128x512_S128 (.inl rfl) rfl)
          shapeCasts_S128_S128x1) 0x00000000#32 reduces_S128x1_S1 (.inl rfl) rfl) shapeCasts_S1_S1x1
      (ix2 (0 : Fin 1) (0 : Fin 1)) = ∑ r : Fin 128, ∑ q : Fin 512, v (ix2 r q) := by
  rw [shapeCast_a_1a_apply, rowSum_apply]
  refine Finset.sum_congr rfl fun r _ => ?_
  rw [col_apply, laneSum_apply]

/-! ## The weighted loss at a position of the tile -/

/-- An exponential read at an index. -/
theorem exp_apply {s : Shape} (x : FVec Ideal s .f32) (i : s.Idx) : exp (F := Ideal) x i = Ideal.exp (x i) := rfl

/-- A logarithm read at an index. -/
theorem log_apply {s : Shape} (x : FVec Ideal s .f32) (i : s.Idx) : log (F := Ideal) x i = Ideal.log (x i) := rfl

/-- An integer comparison read at an index compares the words. -/
theorem cmpi_apply {s : Shape} {w : Nat} (p : CmpIPredicate) (x y : IVec s w) (i : s.Idx) :
    cmpi p x y i = IntOp.cmpi p (x i) (y i) := rfl

/-- The maximum over the sixteen classes at `(r, q)`: the running maximum from `−∞`. -/
theorem classMax_apply (v : FVec Ideal S16x128x512 .f32) (r : Fin 128) (q : Fin 512) :
    multiReduction (F := Ideal) .maximumf [0] S128x512 v 0xFF800000#32 reduces_S16x128x512_S128x512 (.inl rfl) rfl (ix2 r q)
      = rowMax (fun c : Fin 16 => v (ix3 c r q)) := by
  refine (Ideal.multiReduction_maximumf_single v _ reduces_S16x128x512_S128x512 _ _ (ix2 r q)).trans ?_
  have hb : FloatOps.ofBits (F := Ideal) .f32 0xFF800000#32 = (⊥ : EReal) := by simp [Ideal.ofBits, Ideal.ieee]
  rw [hb]
  unfold rowMax
  refine congrArg (fun f : Fin 16 → EReal => (Finset.univ : Finset (Fin 16)).fold max ⊥ f) (funext fun c => congrArg v ?_)
  funext a
  match a with
  | ⟨0, _⟩ => rfl
  | ⟨1, _⟩ => rfl
  | ⟨2, _⟩ => rfl

/-- The sum over the sixteen classes at `(r, q)`. -/
theorem classSum_apply (v : FVec Ideal S16x128x512 .f32) (r : Fin 128) (q : Fin 512) :
    multiReduction (F := Ideal) .add [0] S128x512 v 0x00000000#32 reduces_S16x128x512_S128x512 (.inl rfl) rfl (ix2 r q)
      = ∑ c : Fin 16, v (ix3 c r q) := by
  refine (Ideal.multiReduction_add_single v _ reduces_S16x128x512_S128x512 _ _ (ix2 r q)).trans ?_
  refine Finset.sum_congr rfl fun c _ => congrArg v ?_
  funext a
  match a with
  | ⟨0, _⟩ => rfl
  | ⟨1, _⟩ => rfl
  | ⟨2, _⟩ => rfl

/-- A `[1, 128, 512]` vector broadcast over the sixteen classes reads, at `(c, r, q)`, its entry `(0, r, q)`. -/
theorem bcastClass_apply {α : Type} (v : S1x128x512.Idx → α) (c : Fin 16) (r : Fin 128) (q : Fin 512) :
    broadcastTo S16x128x512 v broadcasts_S1x128x512_S16x128x512 (ix3 c r q) = v (ix3 (0 : Fin 1) r q) := by
  refine broadcastTo_apply v _ (ix3 c r q) (ix3 (0 : Fin 1) r q) fun ax => ?_
  match ax with
  | ⟨0, _⟩ => rfl
  | ⟨1, _⟩ => rfl
  | ⟨2, _⟩ => rfl

/-- The class number along axis 0, as a word. -/
theorem iotaClass_apply (c : Fin 16) (r : Fin 128) (q : Fin 512) :
    iota .tc S16x128x512 32 [0] iota_S16x128x512_d0_w32 (ix3 c r q) = BitVec.ofNat 32 c.val :=
  iota_single_apply _ _ _ _ _ _

/-- The one-hot select: the score where the class number's word is the label word, else 0. -/
theorem onehot_select (n : Nat) (lab : BitVec 32) (a : EReal) :
    Scalar.select (IntOp.cmpi .eq (BitVec.ofNat 32 n) lab) a (0 : EReal) = if BitVec.ofNat 32 n = lab then a else 0 := by
  unfold IntOp.cmpi
  by_cases h : BitVec.ofNat 32 n = lab
  · have hb : (BitVec.ofNat 32 n == lab) = true := by simpa using h
    rw [if_pos h, hb]
    exact select_one a 0
  · have hb : (BitVec.ofNat 32 n == lab) = false := by simpa using h
    rw [if_neg h, hb]
    exact select_zero a 0

/-- The class maximum, kept as a `[1, 128, 512]` vector, at `(0, r, q)`, for scores that read `a c` at `(c, r, q)`. -/
theorem maxVec_apply (s : FVec Ideal S16x128x512 .f32) (r : Fin 128) (q : Fin 512) (a : Fin 16 → EReal)
    (ha : ∀ c, s (ix3 c r q) = a c) :
    shapeCast S1x128x512 (multiReduction (F := Ideal) .maximumf [0] S128x512 s 0xFF800000#32 reduces_S16x128x512_S128x512
        (.inl rfl) rfl) shapeCasts_S128x512_S1x128x512 (ix3 (0 : Fin 1) r q) = rowMax a := by
  rw [shapeCast_ab_1ab_apply, classMax_apply]
  exact congrArg rowMax (funext ha)

/-- The log of the summed exponentials of the scores shifted by a `[1, 128, 512]` vector `m`, at `(0, r, q)`. -/
theorem lseVec_apply (s : FVec Ideal S16x128x512 .f32) (m : FVec Ideal S1x128x512 .f32) (r : Fin 128) (q : Fin 512)
    (a : Fin 16 → EReal) (ha : ∀ c, s (ix3 c r q) = a c) (M : EReal) (hm : m (ix3 (0 : Fin 1) r q) = M) :
    log (F := Ideal) (shapeCast S1x128x512 (multiReduction (F := Ideal) .add [0] S128x512
        (exp (F := Ideal) (subf (F := Ideal) s (broadcastTo S16x128x512 m broadcasts_S1x128x512_S16x128x512)))
        0x00000000#32 reduces_S16x128x512_S128x512 (.inl rfl) rfl) shapeCasts_S128x512_S1x128x512) (ix3 (0 : Fin 1) r q)
      = Ideal.log (∑ c : Fin 16, Ideal.exp (a c - M)) := by
  rw [log_apply, shapeCast_ab_1ab_apply, classSum_apply]
  refine congrArg Ideal.log (Finset.sum_congr rfl fun c _ => ?_)
  rw [exp_apply, subf_apply, bcastClass_apply, ha c, hm]

/-- The one-hot sum against a `[1, 128, 512]` vector of label words `l`, at `(r, q)`. -/
theorem pickVec_apply (s : FVec Ideal S16x128x512 .f32) (l : IVec S1x128x512 32) (r : Fin 128) (q : Fin 512)
    (a : Fin 16 → EReal) (ha : ∀ c, s (ix3 c r q) = a c) :
    multiReduction (F := Ideal) .add [0] S128x512
        (select (cmpi .eq (iota .tc S16x128x512 32 [0] iota_S16x128x512_d0_w32)
          (broadcastTo S16x128x512 l broadcasts_S1x128x512_S16x128x512)) s
          (broadcast S16x128x512 (Scalar.ofBits (F := Ideal) .f32 0x00000000#32)))
        0x00000000#32 reduces_S16x128x512_S128x512 (.inl rfl) rfl (ix2 r q) = pick a (l (ix3 (0 : Fin 1) r q)) := by
  rw [classSum_apply]
  unfold pick
  refine Finset.sum_congr rfl fun c _ => ?_
  have h0 : FloatOps.ofBits (F := Ideal) .f32 0x00000000#32 = (0 : EReal) := Ideal.ofBits_zero_f32
  rw [select_apply, cmpi_apply, iotaClass_apply, bcastClass_apply, broadcast_apply, ha c, h0]
  exact onehot_select c.val _ (a c)

/-- The body's partial loss for a tile is the tile's summed weighted loss. -/
theorem pay6_apply (x0 : Vec Ideal S1x16x128x512 .f32) (x1 : Vec Ideal S1x128x512 .i32) (x2 : Vec Ideal S1x128x512 .i32) (y : S1x1.Idx) :
    k0_pay6 (F := Ideal) x0 x1 x2 y = tileS x0 x1 x2 := by
  obtain ⟨u, w, rfl⟩ : ∃ (u : Fin 1) (w : Fin 1), y = ix2 u w := ⟨y 0, y 1, eq_ix2 y⟩
  obtain rfl : u = 0 := Subsingleton.elim _ _
  obtain rfl : w = 0 := Subsingleton.elim _ _
  unfold k0_pay6
  refine (total_apply _).trans ?_
  unfold tileS
  refine Finset.sum_congr rfl fun r _ => Finset.sum_congr rfl fun q _ => ?_
  have ha : ∀ c : Fin 16, shapeCast S16x128x512 x0 shapeCasts_S1x16x128x512_S16x128x512 (ix3 c r q)
      = x0 (ix4 (0 : Fin 1) c r q) := fun c => shapeCast_1abc_abc_apply x0 _ c r q
  rw [mulf_apply, pay5_apply, subf_apply, addf_apply, shapeCast_1ab_ab_apply, shapeCast_1ab_ab_apply,
    maxVec_apply _ r q _ ha, lseVec_apply _ _ r q _ ha _ (maxVec_apply _ r q _ ha), pickVec_apply _ _ r q _ ha,
    shapeCast_self, shapeCast_ab_1ab_apply, shapeCast_1ab_ab_apply]
  rfl

/-- The value stored into the loss block: what it held plus the tile's partial loss, at every entry. -/
theorem pay1_apply (v36 : FVec Ideal S1x1 .f32) (v41 : Vec Ideal S1x8x128 .f32) (y : S1x8x128.Idx) :
    k0_pay1 (F := Ideal) v36 v41 y = v41 y + v36 (ix2 (0 : Fin 1) (0 : Fin 1)) := by
  obtain ⟨u, a, b, rfl⟩ : ∃ (u : Fin 1) (a : Fin 8) (b : Fin 128), y = ix3 u a b := ⟨y 0, y 1, y 2, eq_ix3 y⟩
  obtain rfl : u = 0 := Subsingleton.elim _ _
  unfold k0_pay1
  exact block_add_apply v36 v41 a b

/-- The value stored into the count block: what it held plus the tile's summed weights, at every entry. -/
theorem pay2_apply (x1 : Vec Ideal S1x128x512 .i32) (v49 : Vec Ideal S1x8x128 .f32) (y : S1x8x128.Idx) :
    k0_pay2 (F := Ideal) (k0_pay5 (F := Ideal) x1) v49 y = v49 y + tileC x1 := by
  obtain ⟨u, a, b, rfl⟩ : ∃ (u : Fin 1) (a : Fin 8) (b : Fin 128), y = ix3 u a b := ⟨y 0, y 1, y 2, eq_ix3 y⟩
  obtain rfl : u = 0 := Subsingleton.elim _ _
  unfold k0_pay2
  refine (block_add_apply _ v49 a b).trans ?_
  rw [total_apply]
  unfold tileC
  simp only [pay5_apply]

/-- The reset's fill of the loss block is 0 everywhere. -/
theorem pay3_apply (y : S1x8x128.Idx) : k0_pay3 (F := Ideal) y = 0 :=
  Ideal.ofBits_zero_f32

/-- The reset's fill of the count block is 0 everywhere. -/
theorem pay4_apply (y : S1x8x128.Idx) : k0_pay4 (F := Ideal) y = 0 :=
  Ideal.ofBits_zero_f32

end Cert.KernelIdeal.Tile

end
-- ==== Proof.KI.Accum.lean ====
/-
  What the two accumulator blocks hold after each grid point, at the extended reals.  Within a batch row (four
  consecutive grid points) every entry of the loss block holds the running sum `((0 + s₀) + s₁) + …` of the tiles'
  partial losses so far, and every entry of the count block the running sum of the tiles' summed weights; a row's
  first tile starts both again from 0.  By induction on the grid point, from what each case of the body leaves.
-/
import proofs.«401166_j78975858639700_2_alg».proof.Proof.KI.Pieces
import proofs.«401166_j78975858639700_2_alg».proof.Proof.KI.Tile

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Tile

variable (m : (ℓ : Loc nD τ sig) → Buf (Elt Ideal) ℓ)

/-- The three input blocks at a grid point, at their literal types. -/
abbrev blkA (c : Dev nD) (t : Fin cfg0.N) : Vec Ideal S1x16x128x512 .f32 := iblk m c 0 t
abbrev blkM (c : Dev nD) (t : Fin cfg0.N) : Vec Ideal S1x128x512 .i32 := iblk m c 1 t
abbrev blkL (c : Dev nD) (t : Fin cfg0.N) : Vec Ideal S1x128x512 .i32 := iblk m c 2 t

/-- The partial loss and the summed weights of the tile at grid point `t`. -/
def tS (c : Dev nD) (t : Fin cfg0.N) : EReal := tileS (blkA m c t) (blkM m c t) (blkL m c t)
def tC (c : Dev nD) (t : Fin cfg0.N) : EReal := tileC (blkM m c t)

/-- The running loss after grid point `n`: restarted from 0 at a row's first tile. -/
def accS (c : Dev nD) : (n : ℕ) → n < cfg0.N → EReal
  | 0, h => 0 + tS m c ⟨0, h⟩
  | n + 1, h => if (n + 1) % 4 = 0 then 0 + tS m c ⟨n + 1, h⟩ else accS c n (Nat.lt_of_succ_lt h) + tS m c ⟨n + 1, h⟩

/-- The running count after grid point `n`. -/
def accC (c : Dev nD) : (n : ℕ) → n < cfg0.N → EReal
  | 0, h => 0 + tC m c ⟨0, h⟩
  | n + 1, h => if (n + 1) % 4 = 0 then 0 + tC m c ⟨n + 1, h⟩ else accC c n (Nat.lt_of_succ_lt h) + tC m c ⟨n + 1, h⟩

/-- What the blocks hold after a row's first tile: the reset case's contents. -/
theorem outsAt_first (c : Dev nD) (n : ℕ) (h : n < cfg0.N) (h0 : n % 4 = 0) :
    outsAt0 (F := Ideal) m c n h
      = (out0_A_3 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0) (blkA m c ⟨n, h⟩) (blkM m c ⟨n, h⟩) (blkL m c ⟨n, h⟩),
         out0_A_4 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0) (blkA m c ⟨n, h⟩) (blkM m c ⟨n, h⟩) (blkL m c ⟨n, h⟩)) :=
  outsAt0_A m c ⟨n, h⟩ h0

/-- What the blocks hold after a later tile: the other case's contents over the point before. -/
theorem outsAt_later (c : Dev nD) (n : ℕ) (h : n + 1 < cfg0.N) (h0 : ¬(n + 1) % 4 = 0) :
    outsAt0 (F := Ideal) m c (n + 1) h
      = (out0_B_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (blkA m c ⟨n + 1, h⟩) (blkM m c ⟨n + 1, h⟩) (blkL m c ⟨n + 1, h⟩)
            (outsAt0 (F := Ideal) m c n (Nat.lt_of_succ_lt h)).1 (outsAt0 (F := Ideal) m c n (Nat.lt_of_succ_lt h)).2,
         out0_B_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (blkA m c ⟨n + 1, h⟩) (blkM m c ⟨n + 1, h⟩) (blkL m c ⟨n + 1, h⟩)
            (outsAt0 (F := Ideal) m c n (Nat.lt_of_succ_lt h)).1 (outsAt0 (F := Ideal) m c n (Nat.lt_of_succ_lt h)).2) :=
  (dif_neg h0).trans rfl

theorem accS_first (c : Dev nD) (n : ℕ) (h : n < cfg0.N) (h0 : n % 4 = 0) : accS m c n h = 0 + tS m c ⟨n, h⟩ := by
  cases n with
  | zero => rfl
  | succ n => exact if_pos h0
theorem accS_later (c : Dev nD) (n : ℕ) (h : n + 1 < cfg0.N) (h0 : ¬(n + 1) % 4 = 0) :
    accS m c (n + 1) h = accS m c n (Nat.lt_of_succ_lt h) + tS m c ⟨n + 1, h⟩ := if_neg h0
theorem accC_first (c : Dev nD) (n : ℕ) (h : n < cfg0.N) (h0 : n % 4 = 0) : accC m c n h = 0 + tC m c ⟨n, h⟩ := by
  cases n with
  | zero => rfl
  | succ n => exact if_pos h0
theorem accC_later (c : Dev nD) (n : ℕ) (h : n + 1 < cfg0.N) (h0 : ¬(n + 1) % 4 = 0) :
    accC m c (n + 1) h = accC m c n (Nat.lt_of_succ_lt h) + tC m c ⟨n + 1, h⟩ := if_neg h0

set_option maxHeartbeats 800000 in
/-- A row's first tile: every entry is the zero fill plus the tile's sums. -/
theorem step_first (c : Dev nD) (n : ℕ) (h : n < cfg0.N) (h0 : n % 4 = 0) :
    (∀ y, (outsAt0 (F := Ideal) m c n h).1 y = accS m c n h) ∧ (∀ y, (outsAt0 (F := Ideal) m c n h).2 y = accC m c n h) := by
  rw [outsAt_first m c n h h0, accS_first m c n h h0, accC_first m c n h h0]
  dsimp only
  constructor
  · intro y
    refine (congrFun (out_A_3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0) (blkA m c ⟨n, h⟩) (blkM m c ⟨n, h⟩) (blkL m c ⟨n, h⟩)) y).trans ?_
    refine (pay1_apply (k0_pay6 (F := Ideal) (blkA m c ⟨n, h⟩) (blkM m c ⟨n, h⟩) (blkL m c ⟨n, h⟩)) (k0_pay3 (F := Ideal)) y).trans ?_
    rw [pay3_apply, pay6_apply]
    rfl
  · intro y
    refine (congrFun (out_A_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0) (blkA m c ⟨n, h⟩) (blkM m c ⟨n, h⟩) (blkL m c ⟨n, h⟩)) y).trans ?_
    refine (pay2_apply (blkM m c ⟨n, h⟩) (k0_pay4 (F := Ideal)) y).trans ?_
    rw [pay4_apply]
    rfl

set_option maxHeartbeats 800000 in
/-- A later tile: every entry is what the point before left plus the tile's sums. -/
theorem step_later (c : Dev nD) (n : ℕ) (h : n + 1 < cfg0.N) (h0 : ¬(n + 1) % 4 = 0)
    (ih : (∀ y, (outsAt0 (F := Ideal) m c n (Nat.lt_of_succ_lt h)).1 y = accS m c n (Nat.lt_of_succ_lt h))
      ∧ (∀ y, (outsAt0 (F := Ideal) m c n (Nat.lt_of_succ_lt h)).2 y = accC m c n (Nat.lt_of_succ_lt h))) :
    (∀ y, (outsAt0 (F := Ideal) m c (n + 1) h).1 y = accS m c (n + 1) h) ∧ (∀ y, (outsAt0 (F := Ideal) m c (n + 1) h).2 y = accC m c (n + 1) h) := by
  rw [outsAt_later m c n h h0, accS_later m c n h h0, accC_later m c n h h0]
  dsimp only
  constructor
  · intro y
    refine (congrFun (out_B_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (blkA m c ⟨n + 1, h⟩) (blkM m c ⟨n + 1, h⟩) (blkL m c ⟨n + 1, h⟩)
      (outsAt0 (F := Ideal) m c n (Nat.lt_of_succ_lt h)).1 (outsAt0 (F := Ideal) m c n (Nat.lt_of_succ_lt h)).2) y).trans ?_
    refine (pay1_apply (k0_pay6 (F := Ideal) (blkA m c ⟨n + 1, h⟩) (blkM m c ⟨n + 1, h⟩) (blkL m c ⟨n + 1, h⟩)) (outsAt0 (F := Ideal) m c n (Nat.lt_of_succ_lt h)).1 y).trans ?_
    rw [ih.1 y, pay6_apply]
    rfl
  · intro y
    refine (congrFun (out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (blkA m c ⟨n + 1, h⟩) (blkM m c ⟨n + 1, h⟩) (blkL m c ⟨n + 1, h⟩)
      (outsAt0 (F := Ideal) m c n (Nat.lt_of_succ_lt h)).1 (outsAt0 (F := Ideal) m c n (Nat.lt_of_succ_lt h)).2) y).trans ?_
    refine (pay2_apply (blkM m c ⟨n + 1, h⟩) (outsAt0 (F := Ideal) m c n (Nat.lt_of_succ_lt h)).2 y).trans ?_
    rw [ih.2 y]
    rfl

/-- After every grid point each entry of the loss block is the running loss and each entry of the count block the
    running count. -/
theorem outsAt_eq (c : Dev nD) : ∀ (n : ℕ) (h : n < cfg0.N),
    (∀ y, (outsAt0 (F := Ideal) m c n h).1 y = accS m c n h) ∧ (∀ y, (outsAt0 (F := Ideal) m c n h).2 y = accC m c n h) := by
  intro n
  induction n with
  | zero => intro h; exact step_first m c 0 h rfl
  | succ n ih =>
    intro h
    by_cases h0 : (n + 1) % 4 = 0
    · exact step_first m c (n + 1) h h0
    · exact step_later m c n h h0 (ih (Nat.lt_of_succ_lt h))

end Cert.KernelIdeal.Hand

end
-- ==== Proof.KI.Arrays.lean ====
/-
  The two result arrays of the region, `[8, 8, 128]` each, after the run.  The pipeline writes an accumulator block
  back only after a batch row's fourth tile (grid points ≡ 3 mod 4), into block `b` of the array: the 8 × 128 entries
  `(b, ·, ·)`.  What it writes is the running sum after that point at every entry.  The eight write-backs cover the
  array, so entry `(b, s, l)` of the loss array ends at the running loss after grid point `4b + 3`, and likewise the
  count array.
-/
import proofs.«401166_j78975858639700_2_alg».proof.Proof.KI.Accum
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ)

theorem accS_congr (c : Dev nD) {n n' : ℕ} (e : n = n') (h : n < cfg0.N) (h' : n' < cfg0.N) : accS m c n h = accS m c n' h' := by
  subst e; rfl
theorem accC_congr (c : Dev nD) {n n' : ℕ} (e : n = n') (h : n < cfg0.N) (h' : n' < cfg0.N) : accC m c n h = accC m c n' h' := by
  subst e; rfl

/-- The grid point after which batch row `b`'s blocks are written back is inside the grid. -/
theorem rowEnd_lt (b : ℕ) (hb : b < 8) : 4 * b + 3 < cfg0.N := by
  have : cfg0.N = 32 := N_0
  omega

/-- The loss array after the run, entry by entry: the running loss after the last tile of the entry's batch row. -/
def lossArr (c : Dev nD) : S8x8x128.Idx → EReal := fun i => accS m c (4 * (i 0).val + 3) (rowEnd_lt _ (i 0).isLt)
/-- The count array after the run. -/
def countArr (c : Dev nD) : S8x8x128.Idx → EReal := fun i => accC m c (4 * (i 0).val + 3) (rowEnd_lt _ (i 0).isLt)

/-- The two output windows' index maps, decided over the grid: block `t / 4` on the batch axis, block 0 on the others. -/
theorem out_idx_facts : ∀ t : Fin cfg0.N,
    win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0 :=
  (by decide +kernel : ∀ t : Fin grid0.N, _)

/-- What a write-back point writes into the loss array is its block of `lossArr`. -/
theorem flushed3_eq (c : Dev nD) (t : Fin cfg0.N) (hf : (cfg0.win 3).flush t = true) :
    (dats m 0 c).flushed 3 t = ((cfg0.win 3).blk t).view.read (Elt Ideal) (lossArr m c) := by
  have h3 : t.val % 4 = 3 := (flush0_3 t).mp hf
  obtain ⟨e0, e1, e2, -, -, -⟩ := out_idx_facts t
  show (cfg0.win 3).cut (grid0.coords t) ((dats m 0 c).after 3 t) = _
  rw [after0_3]
  funext y
  show (outsAt0 (F := Ideal) m c t.val t.isLt).1 y = lossArr m c (((cfg0.win 3).blk t).view.emb y)
  rw [(outsAt_eq m c t.val t.isLt).1 y]
  unfold lossArr
  apply accS_congr
  have hy : (((cfg0.win 3).blk t).view.emb y 0).val = win0_3.index t (0 : Fin 3) * 1 + 1 * (y 0).val := rfl
  have hy0 : (y 0).val < 1 := (y 0).isLt
  omega

/-- What a write-back point writes into the count array is its block of `countArr`. -/
theorem flushed4_eq (c : Dev nD) (t : Fin cfg0.N) (hf : (cfg0.win 4).flush t = true) :
    (dats m 0 c).flushed 4 t = ((cfg0.win 4).blk t).view.read (Elt Ideal) (countArr m c) := by
  have h3 : t.val % 4 = 3 := (flush0_4 t).mp hf
  obtain ⟨-, -, -, e0, e1, e2⟩ := out_idx_facts t
  show (cfg0.win 4).cut (grid0.coords t) ((dats m 0 c).after 4 t) = _
  rw [after0_4]
  funext y
  show (outsAt0 (F := Ideal) m c t.val t.isLt).2 y = countArr m c (((cfg0.win 4).blk t).view.emb y)
  rw [(outsAt_eq m c t.val t.isLt).2 y]
  unfold countArr
  apply accC_congr
  have hy : (((cfg0.win 4).blk t).view.emb y 0).val = win0_4.index t (0 : Fin 3) * 1 + 1 * (y 0).val := rfl
  have hy0 : (y 0).val < 1 := (y 0).isLt
  omega

/-- Every entry of the loss array lies in the block some write-back point writes: that of its batch row's last tile. -/
theorem cover3 (i : S8x8x128.Idx) : ∃ t : Fin cfg0.N, (cfg0.win 3).flush t = true ∧ i ∈ ((cfg0.win 3).blk t).view.set := by
  have h0 : (i 0).val < 8 := (i 0).isLt
  have h1 : (i 1).val < 8 := (i 1).isLt
  have h2 : (i 2).val < 128 := (i 2).isLt
  refine ⟨⟨4 * (i 0).val + 3, rowEnd_lt _ h0⟩, (flush0_3 _).mpr (by show (4 * (i 0).val + 3) % 4 = 3; omega), ?_⟩
  obtain ⟨e0, e1, e2, -, -, -⟩ := out_idx_facts ⟨4 * (i 0).val + 3, rowEnd_lt _ h0⟩
  have e0' : win0_3.index ⟨4 * (i 0).val + 3, rowEnd_lt _ h0⟩ (0 : Fin 3) = (i 0).val := by rw [e0]; show (4 * (i 0).val + 3) / 4 = _; omega
  show i ∈ ((View.whole main_v29_0).slice (win0_3.rect ⟨4 * (i 0).val + 3, rowEnd_lt _ h0⟩)).set
  rw [View.set_slice_whole, Rect.mem_set_unit]
  intro a
  match a with
  | ⟨0, _⟩ => show win0_3.index _ (0 : Fin 3) * 1 ≤ (i 0).val ∧ (i 0).val < win0_3.index _ (0 : Fin 3) * 1 + 1; rw [e0']; omega
  | ⟨1, _⟩ => show win0_3.index _ (1 : Fin 3) * 8 ≤ (i 1).val ∧ (i 1).val < win0_3.index _ (1 : Fin 3) * 8 + 8; rw [e1]; omega
  | ⟨2, _⟩ => show win0_3.index _ (2 : Fin 3) * 128 ≤ (i 2).val ∧ (i 2).val < win0_3.index _ (2 : Fin 3) * 128 + 128; rw [e2]; omega

/-- The same for the count array. -/
theorem cover4 (i : S8x8x128.Idx) : ∃ t : Fin cfg0.N, (cfg0.win 4).flush t = true ∧ i ∈ ((cfg0.win 4).blk t).view.set := by
  have h0 : (i 0).val < 8 := (i 0).isLt
  have h1 : (i 1).val < 8 := (i 1).isLt
  have h2 : (i 2).val < 128 := (i 2).isLt
  refine ⟨⟨4 * (i 0).val + 3, rowEnd_lt _ h0⟩, (flush0_4 _).mpr (by show (4 * (i 0).val + 3) % 4 = 3; omega), ?_⟩
  obtain ⟨-, -, -, e0, e1, e2⟩ := out_idx_facts ⟨4 * (i 0).val + 3, rowEnd_lt _ h0⟩
  have e0' : win0_4.index ⟨4 * (i 0).val + 3, rowEnd_lt _ h0⟩ (0 : Fin 3) = (i 0).val := by rw [e0]; show (4 * (i 0).val + 3) / 4 = _; omega
  show i ∈ ((View.whole main_v29_1).slice (win0_4.rect ⟨4 * (i 0).val + 3, rowEnd_lt _ h0⟩)).set
  rw [View.set_slice_whole, Rect.mem_set_unit]
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 8 ≤ (i 1).val ∧ (i 1).val < win0_4.index _ (1 : Fin 3) * 8 + 8; rw [e1]; omega
  | ⟨2, _⟩ => show win0_4.index _ (2 : Fin 3) * 128 ≤ (i 2).val ∧ (i 2).val < win0_4.index _ (2 : Fin 3) * 128 + 128; rw [e2]; omega

/-- So the loss array ends at `lossArr`, -/
theorem final3 (c : Dev nD) : (dats m 0 c).arrAt 3 cfg0.N = lossArr m c :=
  (dats m 0 c).arrAt_eq_of_cover 3 (lossArr m c) (flushed3_eq m c) (cover3)
/-- and the count array at `countArr`. -/
theorem final4 (c : Dev nD) : (dats m 0 c).arrAt 4 cfg0.N = countArr m c :=
  (dats m 0 c).arrAt_eq_of_cover 4 (countArr m c) (flushed4_eq m c) (cover4)

end Cert.KernelIdeal.Hand

end
-- ==== Proof.KI.Tail.lean ====
/-
  The host lines after the region: from each of the two result arrays they take entry `(b, 0, 0)` of every batch row
  (a slice and a reshape to a vector of 8), divide the row's loss by the larger of its count and 1, sum the eight
  quotients and divide by 8.  Read at the extended reals off the arrays the region leaves.
-/
import proofs.«401166_j78975858639700_2_alg».proof.Proof.KI.Arrays
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- Entry `(b, 0, 0)` of every batch row of a `[8, 8, 128]` array, as a vector of 8. -/
def rowVec (G : S8x8x128.Idx → EReal) : S8.Idx → EReal :=
  shapeCast S8 (extractStridedSlice S8x1x1 ![0, 0, 0] G slices_S8x8x128_S8x1x1_0_0_0) shapeCasts_S8x1x1_S8

/-- It reads, at batch row `b`, the array's entry `(b, 0, 0)`. -/
theorem rowVec_apply (G : S8x8x128.Idx → EReal) (b : Fin 8) : rowVec G (ix1 b) = G (ix3 b (0 : Fin 8) (0 : Fin 128)) := by
  unfold rowVec
  rw [shapeCast_apply _ _ (ix1 b) (ix3 b (0 : Fin 1) (0 : Fin 1)) (by rw [Shape.rowMajor_val_three, Shape.rowMajor_val_one]; show (b.val * 1 + 0) * 1 + 0 = b.val; omega)]
  exact extractStridedSlice_apply _ _ _ _ (ix3 b (0 : Fin 8) (0 : Fin 128)) (fun a => by
    match a with
    | ⟨0, _⟩ => show b.val = 0 + b.val; omega
    | ⟨1, _⟩ => rfl
    | ⟨2, _⟩ => rfl)

/-- The lines after the region, as one function of the two row vectors. -/
def tailOf (S C : S8.Idx → EReal) : S_.Idx → EReal :=
  Host.divf (F := Ideal) (φ := .f32)
    (Host.reduceAdd (F := Ideal) (φ := .f32)
      (Host.divf (F := Ideal) (φ := .f32) S (maximumf (F := Ideal) (φ := .f32) C (broadcastInDim S8 ![] bcast_S_S8 (constant (F := Ideal) S_ .f32 0x3F800000#32))))
      (constant (F := Ideal) S_ .f32 0x00000000#32) reducesTo_S8_S_d0 h_S_)
    (constant (F := Ideal) S_ .f32 0x41000000#32)

/-- The loss array where the later lines find it. -/
theorem wa3 (c : Dev nD) :
    Pipeline.withArrays (cfgs (0 : Fin 1)).spec c (V0 m c) (fun w => (dats m 0 c).arrAt w (cfgs (0 : Fin 1)).N) (Proc.devRef .tc main_v29_0)
      = lossArr m c :=
  (Pipeline.withArrays_arr spec0 launch0.win.arr_inj c _ _ 3).trans (final3 m c)
/-- The count array where the later lines find it. -/
theorem wa4 (c : Dev nD) :
    Pipeline.withArrays (cfgs (0 : Fin 1)).spec c (V0 m c) (fun w => (dats m 0 c).arrAt w (cfgs (0 : Fin 1)).N) (Proc.devRef .tc main_v29_1)
      = countArr m c :=
  (Pipeline.withArrays_arr spec0 launch0.win.arr_inj c _ _ 4).trans (final4 m c)

/-- The program's result buffer after the later lines: `tailOf` of the two arrays' row vectors. -/
theorem tail_v38 (c : Dev nD) :
    Pipeline.afterTail₀ cfgs (dats m) 0 (V0 m) [hostOps1] c main_v38 = tailOf (rowVec (lossArr m c)) (rowVec (countArr m c)) := by
  unfold Pipeline.afterTail₀
  show StableHlo.after hostOps1 _ (Proc.devRef .tc main_v38) = _
  after_results
  rw [wa3, wa4]
  rfl

end Cert.KernelIdeal.Hand

end
-- ==== Proof.KI.Blocks.lean ====
/-
  The three input windows' blocks at a grid point, read off the arrays the region finds.  Point `t` of the 8 × 4 grid is
  batch row `t / 4`, tile `t % 4`: the scores' block holds rows `128 · (t % 4) … + 127` of all sixteen class planes of that
  batch row, the widened mask's and the label grid's blocks the same rows of their planes.  An entry of a block is the
  array's entry at block index × block size + the coordinate inside the block, axis by axis.
-/
import proofs.«401166_j78975858639700_2_alg».proof.Proof.KI.Kit
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ)

/-- The batch row of a grid point. -/
def rowOf (t : Fin cfg0.N) : Fin 8 := ⟨t.val / 4, by have := lt_of_lt_of_eq t.isLt (show cfg0.N = 32 from N_0); omega⟩
/-- Row `r` of a grid point's tile, as a row of the whole plane. -/
def rowIn (t : Fin cfg0.N) (r : Fin 128) : Fin 512 := ⟨128 * (t.val % 4) + r.val, by have := r.isLt; omega⟩

/-- The three input windows' index maps, decided over the 32 grid points: the scores' block index is
    `(t / 4, 0, t % 4, 0)`, the widened mask's and the label grid's `(t / 4, t % 4, 0)`. -/
theorem inblk_idx_facts : ∀ t : Fin cfg0.N,
    win0_0.index t (0 : Fin 4) = t.val / 4 ∧ win0_0.index t (1 : Fin 4) = 0
    ∧ win0_0.index t (2 : Fin 4) = t.val % 4 ∧ win0_0.index t (3 : Fin 4) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = t.val % 4 ∧ win0_2.index t (2 : Fin 3) = 0 :=
  (by decide +kernel : ∀ t : Fin grid0.N, _)

/-- The scores' block at `t`, entry `(class, r, q)`: the scores at `(row of t, class, 128·tile + r, q)`. -/
theorem blkA_apply (c : Dev nD) (t : Fin cfg0.N) (cl : Fin 16) (r : Fin 128) (q : Fin 512) :
    (iblk m c 0 t : Vec F S1x16x128x512 .f32) (ix4 (0 : Fin 1) cl r q) = V m c main_arg0 (ix4 (rowOf t) cl (rowIn t r) q) := by
  obtain ⟨e0, e1, e2, e3, -⟩ := inblk_idx_facts t
  -- reading the block is reading the array at the block's embedding of the index
  show V m c main_arg0 (((cfg0.win 0).blk t).view.emb (ix4 (0 : Fin 1) cl r q)) = V m c main_arg0 (ix4 (rowOf t) cl (rowIn t r) q)
  refine congrArg (V m c main_arg0) ?_
  -- axis by axis: block index × block size + the coordinate inside the block
  funext a; apply Fin.ext
  match a with
  | ⟨0, _⟩ => show win0_0.index t (0 : Fin 4) * 1 + 1 * (0 : Fin 1).val = t.val / 4; simp only [Fin.val_zero]; omega
  | ⟨1, _⟩ => show win0_0.index t (1 : Fin 4) * 16 + 1 * cl.val = cl.val; omega
  | ⟨2, _⟩ => show win0_0.index t (2 : Fin 4) * 128 + 1 * r.val = 128 * (t.val % 4) + r.val; omega
  | ⟨3, _⟩ => show win0_0.index t (3 : Fin 4) * 512 + 1 * q.val = q.val; omega

/-- The widened mask's block at `t`, entry `(r, q)`. -/
theorem blkM_apply (c : Dev nD) (t : Fin cfg0.N) (r : Fin 128) (q : Fin 512) :
    (iblk m c 1 t : Vec F S1x128x512 .i32) (ix3 (0 : Fin 1) r q) = V m c main_v28 (ix3 (rowOf t) (rowIn t r) q) := by
  obtain ⟨-, -, -, -, e0, e1, e2, -⟩ := inblk_idx_facts t
  show V m c main_v28 (((cfg0.win 1).blk t).view.emb (ix3 (0 : Fin 1) r q)) = V m c main_v28 (ix3 (rowOf t) (rowIn t r) q)
  refine congrArg (V m c main_v28) ?_
  funext a; apply Fin.ext
  match a with
  | ⟨0, _⟩ => show win0_1.index t (0 : Fin 3) * 1 + 1 * (0 : Fin 1).val = t.val / 4; simp only [Fin.val_zero]; omega
  | ⟨1, _⟩ => show win0_1.index t (1 : Fin 3) * 128 + 1 * r.val = 128 * (t.val % 4) + r.val; omega
  | ⟨2, _⟩ => show win0_1.index t (2 : Fin 3) * 512 + 1 * q.val = q.val; omega

/-- The label grid's block at `t`, entry `(r, q)`. -/
theorem blkL_apply (c : Dev nD) (t : Fin cfg0.N) (r : Fin 128) (q : Fin 512) :
    (iblk m c 2 t : Vec F S1x128x512 .i32) (ix3 (0 : Fin 1) r q) = V m c main_v27 (ix3 (rowOf t) (rowIn t r) q) := by
  obtain ⟨-, -, -, -, -, -, -, e0, e1, e2⟩ := inblk_idx_facts t
  show V m c main_v27 (((cfg0.win 2).blk t).view.emb (ix3 (0 : Fin 1) r q)) = V m c main_v27 (ix3 (rowOf t) (rowIn t r) q)
  refine congrArg (V m c main_v27) ?_
  funext a; apply Fin.ext
  match a with
  | ⟨0, _⟩ => show win0_2.index t (0 : Fin 3) * 1 + 1 * (0 : Fin 1).val = t.val / 4; simp only [Fin.val_zero]; omega
  | ⟨1, _⟩ => show win0_2.index t (1 : Fin 3) * 128 + 1 * r.val = 128 * (t.val % 4) + r.val; omega
  | ⟨2, _⟩ => show win0_2.index t (2 : Fin 3) * 512 + 1 * q.val = q.val; omega

end Cert.KernelIdeal.Hand

end
-- ==== Proof.KI.RowSum.lean ====
/-
  A batch row's running sums at its last tile are the specification's sums over the whole row.  The four tiles of
  batch row `b` are grid points `4b … 4b + 3`; the running loss after the last is `((0 + s₀) + s₁) + s₂) + s₃` of the
  tiles' partial losses, each a sum over the tile's 128 rows and 512 columns of the weighted loss at the position —
  read off the arrays the region finds, the tile's row `r` being row `128·tile + r` of the plane —, so the four together
  are the sum over all 512 rows.  The kernel weighs a position by the widened mask word tested against zero, which is
  the mask bit's own value.
-/
import proofs.«401166_j78975858639700_2_alg».proof.Proof.KI.Accum
import proofs.«401166_j78975858639700_2_alg».proof.Proof.KI.Blocks
import proofs.«401166_j78975858639700_2_alg».proof.Proof.PointLaw

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Tile Cert.Spec

variable (m : (ℓ : Loc nD τ sig) → Buf (Elt Ideal) ℓ)

/-- Four steps of the running loss: after the fourth tile of a row that starts at grid point `k` it is the four tiles'
    partial losses, added in order. -/
theorem accS_four (c : Dev nD) (k : ℕ) (hk : k % 4 = 0) (h : k + 3 < cfg0.N) :
    accS m c (k + 3) h
      = tS m c ⟨k, by omega⟩ + tS m c ⟨k + 1, by omega⟩ + tS m c ⟨k + 2, by omega⟩ + tS m c ⟨k + 3, h⟩ := by
  have e3 := accS_later m c (k + 2) h (by omega)
  have e2 := accS_later m c (k + 1) (Nat.lt_of_succ_lt h) (by omega)
  have e1 := accS_later m c k (Nat.lt_of_succ_lt (Nat.lt_of_succ_lt h)) (by omega)
  have e0 := accS_first m c k (Nat.lt_of_succ_lt (Nat.lt_of_succ_lt (Nat.lt_of_succ_lt h))) hk
  rw [e0, zero_add] at e1
  rw [e1] at e2
  rw [e2] at e3
  exact e3

/-- Four steps of the running count. -/
theorem accC_four (c : Dev nD) (k : ℕ) (hk : k % 4 = 0) (h : k + 3 < cfg0.N) :
    accC m c (k + 3) h
      = tC m c ⟨k, by omega⟩ + tC m c ⟨k + 1, by omega⟩ + tC m c ⟨k + 2, by omega⟩ + tC m c ⟨k + 3, h⟩ := by
  have e3 := accC_later m c (k + 2) h (by omega)
  have e2 := accC_later m c (k + 1) (Nat.lt_of_succ_lt h) (by omega)
  have e1 := accC_later m c k (Nat.lt_of_succ_lt (Nat.lt_of_succ_lt h)) (by omega)
  have e0 := accC_first m c k (Nat.lt_of_succ_lt (Nat.lt_of_succ_lt (Nat.lt_of_succ_lt h))) hk
  rw [e0, zero_add] at e1
  rw [e1] at e2
  rw [e2] at e3
  exact e3

/-- Row `r` of tile `n` of a grid point of batch row `b`, as a row of the plane. -/
theorem rowIn_eq (t : Fin cfg0.N) (n : Fin 4) (hn : t.val % 4 = n.val) (r : Fin 128) :
    rowIn t r = ⟨128 * n.val + r.val, by have := n.isLt; have := r.isLt; omega⟩ :=
  Fin.ext (by show 128 * (t.val % 4) + r.val = 128 * n.val + r.val; rw [hn])

/-- The partial loss of tile `n` of batch row `b`: the weighted loss summed over rows `128·n … 128·n + 127` of the
    row's plane and all its columns. -/
theorem tS_tile (c : Dev nD) (mask : SGrid.Idx → BitVec 1)
    (hmask : ∀ p : SGrid.Idx, (V m c main_v28 : SGrid.Idx → BitVec 32) p = (mask p).setWidth 32)
    (b : Fin 8) (n : Fin 4) (t : Fin cfg0.N) (hb : rowOf t = b) (hn : t.val % 4 = n.val) :
    tS m c t = ∑ r : Fin 128, ∑ q : Fin 512,
      term (V m c main_arg0 : SAdj.Idx → EReal) mask (V m c main_v27 : SGrid.Idx → BitVec 32) b
        ⟨128 * n.val + r.val, by have := n.isLt; have := r.isLt; omega⟩ q := by
  unfold tS tileS
  refine Finset.sum_congr rfl fun r _ => Finset.sum_congr rfl fun q _ => ?_
  have hr := rowIn_eq t n hn r
  -- the three block reads, as reads of the arrays at the position's row of the plane
  have eA : (fun cl : Fin 16 => blkA m c t (ix4 (0 : Fin 1) cl r q))
      = scores (V m c main_arg0 : SAdj.Idx → EReal) b ⟨128 * n.val + r.val, by have := n.isLt; have := r.isLt; omega⟩ q :=
    funext fun cl => (blkA_apply m c t cl r q).trans (by rw [hb, hr]; rfl)
  have eL : blkL m c t (ix3 (0 : Fin 1) r q)
      = (V m c main_v27 : SGrid.Idx → BitVec 32) (ix3 b ⟨128 * n.val + r.val, by have := n.isLt; have := r.isLt; omega⟩ q) :=
    (blkL_apply m c t r q).trans (by rw [hb, hr])
  have eM : blkM m c t (ix3 (0 : Fin 1) r q)
      = (mask (ix3 b ⟨128 * n.val + r.val, by have := n.isLt; have := r.isLt; omega⟩ q)).setWidth 32 :=
    (blkM_apply m c t r q).trans (by rw [hb, hr]; exact hmask _)
  show nll (fun cl : Fin 16 => blkA m c t (ix4 (0 : Fin 1) cl r q)) (blkL m c t (ix3 (0 : Fin 1) r q))
      * validW (blkM m c t (ix3 (0 : Fin 1) r q)) = _
  rw [eA, eL, eM, validW_setWidth]
  rfl

/-- The summed weights of tile `n` of batch row `b`: the mask bits' weights summed over the tile's rows and all columns. -/
theorem tC_tile (c : Dev nD) (mask : SGrid.Idx → BitVec 1)
    (hmask : ∀ p : SGrid.Idx, (V m c main_v28 : SGrid.Idx → BitVec 32) p = (mask p).setWidth 32)
    (b : Fin 8) (n : Fin 4) (t : Fin cfg0.N) (hb : rowOf t = b) (hn : t.val % 4 = n.val) :
    tC m c t = ∑ r : Fin 128, ∑ q : Fin 512,
      valid (mask (ix3 b (⟨128 * n.val + r.val, by have := n.isLt; have := r.isLt; omega⟩ : Fin 512) q)) := by
  unfold tC tileC
  refine Finset.sum_congr rfl fun r _ => Finset.sum_congr rfl fun q _ => ?_
  have hr := rowIn_eq t n hn r
  have eM : blkM m c t (ix3 (0 : Fin 1) r q)
      = (mask (ix3 b ⟨128 * n.val + r.val, by have := n.isLt; have := r.isLt; omega⟩ q)).setWidth 32 :=
    (blkM_apply m c t r q).trans (by rw [hb, hr]; exact hmask _)
  show validW (blkM m c t (ix3 (0 : Fin 1) r q)) = _
  rw [eM, validW_setWidth]

/-- The running loss after the last tile of batch row `b` is the row's summed weighted loss, of the scores, the mask and
    the label grid the region finds (the mask as the bits whose widening the region finds). -/
theorem accS_rowEnd (c : Dev nD) (mask : SGrid.Idx → BitVec 1)
    (hmask : ∀ p : SGrid.Idx, (V m c main_v28 : SGrid.Idx → BitVec 32) p = (mask p).setWidth 32)
    (b : Fin 8) (h : 4 * b.val + 3 < cfg0.N) :
    accS m c (4 * b.val + 3) h = sumS (V m c main_arg0 : SAdj.Idx → EReal) mask (V m c main_v27 : SGrid.Idx → BitVec 32) b := by
  -- tile `n` of the row is grid point `4b + n`
  have hT : ∀ (n : Fin 4) (hn : 4 * b.val + n.val < cfg0.N), tS m c ⟨4 * b.val + n.val, hn⟩
      = ∑ r : Fin 128, ∑ q : Fin 512,
          term (V m c main_arg0 : SAdj.Idx → EReal) mask (V m c main_v27 : SGrid.Idx → BitVec 32) b
            ⟨128 * n.val + r.val, by have := n.isLt; have := r.isLt; omega⟩ q := fun n hn =>
    tS_tile m c mask hmask b n ⟨4 * b.val + n.val, hn⟩
      (Fin.ext (by show (4 * b.val + n.val) / 4 = b.val; have := n.isLt; omega))
      (by show (4 * b.val + n.val) % 4 = n.val; have := n.isLt; omega)
  have e0 := hT 0 (by show 4 * b.val + 0 < cfg0.N; omega)
  have e1 := hT 1 (by show 4 * b.val + 1 < cfg0.N; omega)
  have e2 := hT 2 (by show 4 * b.val + 2 < cfg0.N; omega)
  have e3 := hT 3 h
  refine (accS_four m c (4 * b.val) (by omega) h).trans ?_
  refine (congrArg₂ (· + ·) (congrArg₂ (· + ·) (congrArg₂ (· + ·) e0 e1) e2) e3).trans ?_
  unfold sumS
  rw [← sum_tiles (fun i : Fin 512 => ∑ j : Fin 512,
    term (V m c main_arg0 : SAdj.Idx → EReal) mask (V m c main_v27 : SGrid.Idx → BitVec 32) b i j), Fin.sum_univ_four]

/-- The running count after the last tile of batch row `b` is the row's count of valid positions. -/
theorem accC_rowEnd (c : Dev nD) (mask : SGrid.Idx → BitVec 1)
    (hmask : ∀ p : SGrid.Idx, (V m c main_v28 : SGrid.Idx → BitVec 32) p = (mask p).setWidth 32)
    (b : Fin 8) (h : 4 * b.val + 3 < cfg0.N) :
    accC m c (4 * b.val + 3) h = sumC mask b := by
  have hT : ∀ (n : Fin 4) (hn : 4 * b.val + n.val < cfg0.N), tC m c ⟨4 * b.val + n.val, hn⟩
      = ∑ r : Fin 128, ∑ q : Fin 512,
          valid (mask (ix3 b (⟨128 * n.val + r.val, by have := n.isLt; have := r.isLt; omega⟩ : Fin 512) q)) := fun n hn =>
    tC_tile m c mask hmask b n ⟨4 * b.val + n.val, hn⟩
      (Fin.ext (by show (4 * b.val + n.val) / 4 = b.val; have := n.isLt; omega))
      (by show (4 * b.val + n.val) % 4 = n.val; have := n.isLt; omega)
  have e0 := hT 0 (by show 4 * b.val + 0 < cfg0.N; omega)
  have e1 := hT 1 (by show 4 * b.val + 1 < cfg0.N; omega)
  have e2 := hT 2 (by show 4 * b.val + 2 < cfg0.N; omega)
  have e3 := hT 3 h
  refine (accC_four m c (4 * b.val) (by omega) h).trans ?_
  refine (congrArg₂ (· + ·) (congrArg₂ (· + ·) (congrArg₂ (· + ·) e0 e1) e2) e3).trans ?_
  unfold sumC
  rw [← sum_tiles (fun i : Fin 512 => ∑ j : Fin 512, valid (mask (ix3 b i j))), Fin.sum_univ_four]

end Cert.KernelIdeal.Hand

end
-- ==== Proof.LibNaryResult.lean ====
/-
  A host operation over a literal family of references, read at its result.

  `StableHlo.nary xs y f` writes `f` of the family of its operands' contents into `y`.  Its general result
  lemma states the family as `fun k => F ↑(xs k)`; for a LITERAL family `![a, b, c]` the lemmas below state it
  as `Fin.cons (F ↑a) (Fin.cons (F ↑b) …)` instead — each operand's contents at its own reference —, which is what
  lets a rewriting pass over a line of operations go on into the operands (a concatenate of three, five or nine
  computed pieces).  The library has this form for four references (`nary4_result`); these are the same statement
  and proof at three, five and nine.
-/
import Idealize.ShloMosaic.Lib.StableHlo.Run

noncomputable section

namespace Idealize.ShloMosaic.StableHlo

variable {nD : Nat} {τ : Topo} {sig : RefSig} {Val : EltTy → Type}
variable {x a b c e g h i j y : Ref sig .tc}

/-- `nary` over a LITERAL family of 3 references: the result with each operand's contents at its own reference, so that
    a pass over the operations' results goes on rewriting the operands' contents (under the binder of `nary_result` the
    reference `![x, a, b] k` is no literal and no result lemma applies to it). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
/-- The same with the result reference un-indexed, for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- `nary` over a LITERAL family of 5 references: the result with each operand's contents at its own reference, so that
    a pass over the operations' results goes on rewriting the operands' contents (under the binder of `nary_result` the
    reference `![x, a, b, c, e] k` is no literal and no result lemma applies to it). -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) := by
  rw [nary_result]; congr 1; funext k; fin_cases k <;> rfl
/-- The same with the result reference un-indexed, for `simp`. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) :=
  nary5_result f hxs hy F

/-- `nary` over a LITERAL family of 9 references: the result with each operand's contents at its own reference, so that
    a pass over the operations' results goes on rewriting the operands' contents (under the binder of `nary_result` the
    reference `![x, a, b, c, e, g, h, i, j] k` is no literal and no result lemma applies to it). -/
theorem nary9_result
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) := by
  rw [nary_result]; congr 1; funext k; fin_cases k <;> rfl
/-- The same with the result reference un-indexed, for `simp`. -/
theorem nary9_result'
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) :=
  nary9_result f hxs hy F

end Idealize.ShloMosaic.StableHlo

end
-- ==== Proof.LibScatterInvariant.lean ====
/-
  A host scatter keeps any property its operand's entries and its updates' entries share.

  `Host.scatter d f x idx upd` folds over the update indices: each step either leaves the array alone (the update's
  target lies outside the operand) or replaces ONE entry `r i` by `f (r i) (upd e)`.  So a property `P` that holds of
  every entry of the operand `x` and of every entry of the updates `upd`, and that `f` preserves, holds of every entry of
  the result — in particular, for `f = fun _ b => b` (an `.at[…].set`), every result entry is an operand entry or an
  update entry.
-/
import Idealize.ShloMosaic.PureOps.ShapeOps

namespace Idealize.ShloMosaic

/-- One step of the fold keeps the property: the step either returns the array it was given, or changes the one entry
    at the update's target to `f` of the old entry and the update's. -/
private theorem Host.scatter_step_forall {α : Type} {w : Nat} {s si u : Shape} (d : ScatterDims s si u) (f : α → α → α)
    (P : α → Prop) (hf : ∀ a b, P a → P b → P (f a b)) (idx : IVec si w) (upd : u.Idx → α) (hu : ∀ e, P (upd e))
    (r : s.Idx → α) (hr : ∀ i, P (r i)) (n : Fin u.numel) :
    ∀ i', P ((match d.resultIdx? (u.rowMajor.symm n) idx with
      | some i => fun i' => if i' = i then f (r i) (upd (u.rowMajor.symm n)) else r i'
      | none => r) i') := by
  intro i'
  generalize d.resultIdx? (u.rowMajor.symm n) idx = o
  cases o with
  | none => exact hr _
  | some i =>
    show P (if i' = i then f (r i) (upd (u.rowMajor.symm n)) else r i')
    split
    · exact hf _ _ (hr _) (hu _)
    · exact hr _

/-- Every entry of a scatter's result has a property that all the operand's and all the updates' entries have and the
    combining function preserves. -/
theorem Host.scatter_forall {α : Type} {w : Nat} {s si u : Shape} (d : ScatterDims s si u) (f : α → α → α) (P : α → Prop)
    (hf : ∀ a b, P a → P b → P (f a b)) (x : s.Idx → α) (idx : IVec si w) (upd : u.Idx → α)
    (hx : ∀ i, P (x i)) (hu : ∀ e, P (upd e)) : ∀ i, P (Host.scatter d f x idx upd i) := by
  -- the invariant for a fold over any list of update numbers, from any array that has the property
  have key : ∀ (L : List (Fin u.numel)) (r : s.Idx → α), (∀ i, P (r i)) →
      ∀ i, P (L.foldl (fun r n =>
        match d.resultIdx? (u.rowMajor.symm n) idx with
        | some i => fun i' => if i' = i then f (r i) (upd (u.rowMajor.symm n)) else r i'
        | none => r) r i) := by
    intro L
    induction L with
    | nil => intro r hr; simpa using hr
    | cons n L ih =>
      intro r hr
      rw [List.foldl_cons]
      exact ih _ (Host.scatter_step_forall d f P hf idx upd hu r hr n)
  exact key _ x hx

end Idealize.ShloMosaic
-- ==== Proof.KI.Prefix.lean ====
/-
  What the host lines before the region leave in the two arrays the kernel reads besides the scores: the mask widened to
  32-bit words (each word the mask bit's own value), and the label grid — the zero grid with the edge labels scattered
  into it at the edges' endpoints, by the same operations, in the same order, as the reference's own first lines, so
  the same array.  Every entry of that grid is the default 0 or one of the edge labels: if every edge label is a class
  number, so is every entry.
-/
import proofs.«401166_j78975858639700_2_alg».proof.Proof.KI.Kit
import proofs.«401166_j78975858639700_2_alg».proof.Proof.RefReadP
import proofs.«401166_j78975858639700_2_alg».proof.Proof.LibNaryResult
import proofs.«401166_j78975858639700_2_alg».proof.Proof.LibScatterInvariant
import Idealize.ShloMosaic.Lib.ValueIdx

noncomputable section

open Idealize.ShloMosaic Idealize.ShloMosaic.TcCoe Idealize.SL.Sem Idealize.ShloMosaic.ValueIdx Idealize.ShloMosaic.StableHlo

namespace Cert.KernelIdeal.Hand

open Cert.KernelIdeal Cert.KernelIdeal.Gen

variable {F : FTy → Type} [FloatOps F]
variable (m : (ℓ : Loc nD τ sig) → Buf (Elt F) ℓ)

/-- The mask array after the host lines: no line writes the mask itself, and the last line writes its zero-extension
    to 32-bit words into its own buffer. -/
private theorem V_main_v28_eq (c : Dev nD) :
    V m c main_v28
      = extui 32 (m ((c : Thread nD τ).loc main_arg1) : (⟨S8x512x512, .i1⟩ : BufTy).Contents (Elt F)) natLt_1_32 := by
  dsimp only [V, V0]
  simp only [List.flatten_cons, List.flatten_nil, List.append_nil]
  show StableHlo.after hostOps0 (fun b => m (c, b)) (Proc.devRef .tc main_v28) = _
  after_results_simp

/-- The region finds the mask widened: every word is the mask bit zero-extended. -/
theorem V_main_v28_apply (c : Dev nD) (p : S8x512x512.Idx) :
    (V m c main_v28 : S8x512x512.Idx → BitVec 32) p = ((m ((c : Thread nD τ).loc main_arg1) : S8x512x512.Idx → BitVec 1) p).setWidth 32 := by
  rw [V_main_v28_eq]
  rfl

/-- Three index columns (batch row, first endpoint, second endpoint) joined along a new last axis: one index triple per
    edge. -/
private def joined (a b e : (⟨S8x1024x1, .i32⟩ : BufTy).Contents (Elt F)) : (⟨S8x1024x3, .i32⟩ : BufTy).Contents (Elt F) :=
  concatenate S8x1024x3 2 [⟨S8x1024x1, a⟩, ⟨S8x1024x1, b⟩, ⟨S8x1024x1, e⟩] concatenates_S8x1024x1_S8x1024x1_S8x1024x1_S8x1024x3_d2

/-- The line that joins the three columns writes the join of what the three column buffers hold, each column named at
    its own buffer (so that the columns' own lines can be read in turn). -/
private theorem joined_result (G : Valuation τ sig (Elt F)) (hxs hy) :
    (StableHlo.nary (τ := τ) ![main_v23, main_v24, main_v25] main_v26
        (fun u => concatenate S8x1024x3 2 [⟨S8x1024x1, u 0⟩, ⟨S8x1024x1, u 1⟩, ⟨S8x1024x1, u 2⟩] concatenates_S8x1024x1_S8x1024x1_S8x1024x1_S8x1024x3_d2) hxs hy).result G
      (no_index (Proc.devRef .tc main_v26))
      = joined (G (Proc.devRef .tc main_v23)) (G (Proc.devRef .tc main_v24)) (G (Proc.devRef .tc main_v25)) :=
  nary_result _ _ _ hxs hy G

/-- The region finds the label grid the reference's own first lines compute from the same edge endpoints and labels. -/
theorem V_main_v27_eq (c : Dev nD) :
    (V m c main_v27 : S8x512x512.Idx → BitVec 32)
      = Cert.ReferenceIdeal.ReadP.val_main_v27 (F := F) (m ((c : Thread nD τ).loc main_arg2)) (m ((c : Thread nD τ).loc main_arg3)) := by
  dsimp only [V, V0]
  simp only [List.flatten_cons, List.flatten_nil, List.append_nil]
  show StableHlo.after hostOps0 (fun b => m (c, b)) (Proc.devRef .tc main_v27) = _
  -- each line's result at its own buffer, every other buffer as the earlier lines left it: the grid is the scatter of
  -- the labels into the zero grid at the joined index triples, the triples built from the edge list's two columns
  simp (disch := decide) only [after_cons, after_nil, joined_result,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  -- the reference's stages are the same operations on the same arguments, stage by stage
  unfold Cert.ReferenceIdeal.ReadP.val_main_v27 Cert.ReferenceIdeal.ReadP.val_main_v26 Cert.ReferenceIdeal.ReadP.val_main_v25 Cert.ReferenceIdeal.ReadP.val_main_v24 Cert.ReferenceIdeal.ReadP.val_main_v23 Cert.ReferenceIdeal.ReadP.val_main_v22 Cert.ReferenceIdeal.ReadP.val_main_v21 Cert.ReferenceIdeal.ReadP.val_main_v20 Cert.ReferenceIdeal.ReadP.val_main_c_5 Cert.ReferenceIdeal.ReadP.val_main_v19 Cert.ReferenceIdeal.ReadP.val_main_v18 Cert.ReferenceIdeal.ReadP.val_main_c_4 Cert.ReferenceIdeal.ReadP.val_main_v17 Cert.ReferenceIdeal.ReadP.val_main_v16 Cert.ReferenceIdeal.ReadP.val_main_v15 Cert.ReferenceIdeal.ReadP.val_main_c_3 Cert.ReferenceIdeal.ReadP.val_main_v14 Cert.ReferenceIdeal.ReadP.val_main_v13 Cert.ReferenceIdeal.ReadP.val_main_c_2 Cert.ReferenceIdeal.ReadP.val_main_v12 Cert.ReferenceIdeal.ReadP.val_main_v11 Cert.ReferenceIdeal.ReadP.val_main_v10 Cert.ReferenceIdeal.ReadP.val_main_c_1 Cert.ReferenceIdeal.ReadP.val_main_v9 Cert.ReferenceIdeal.ReadP.val_main_v8 Cert.ReferenceIdeal.ReadP.val_main_c_0 Cert.ReferenceIdeal.ReadP.val_main_v7 Cert.ReferenceIdeal.ReadP.val_main_v6 Cert.ReferenceIdeal.ReadP.val_main_v5 Cert.ReferenceIdeal.ReadP.val_main_v4 Cert.ReferenceIdeal.ReadP.val_main_v3 Cert.ReferenceIdeal.ReadP.val_main_c Cert.ReferenceIdeal.ReadP.val_main_v2 Cert.ReferenceIdeal.ReadP.val_main_v1 Cert.ReferenceIdeal.ReadP.val_main_v0 joined
  rfl

end Cert.KernelIdeal.Hand

namespace Cert.ReferenceIdeal.RefValue

open Cert.ReferenceIdeal Cert.ReferenceIdeal.Gen Cert.ReferenceIdeal.ReadP

variable {F : FTy → Type} [FloatOps F]

/-- If every edge label is a class number, so is every entry of the label grid. -/
theorem labels_range (x2 : (⟨S8x1024x2, .i32⟩ : BufTy).Contents (Elt F)) (x3 : (⟨S8x1024, .i32⟩ : BufTy).Contents (Elt F))
    (h : ∀ e, ((x3 : S8x1024.Idx → BitVec 32) e).toNat < 16) : ∀ p, ((val_main_v27 (F := F) x2 x3 : S8x512x512.Idx → BitVec 32) p).toNat < 16 := by
  unfold val_main_v27
  -- a scatter that overwrites keeps a property shared by the operand's entries (all 0) and the updates' (the labels)
  refine Idealize.ShloMosaic.Host.scatter_forall _ (fun _ b => b) (fun w : BitVec 32 => w.toNat < 16)
    (fun _ _ _ hb => hb) _ _ _ ?_ h
  intro i
  show ((val_main_v3 (F := F) i : BitVec 32)).toNat < 16
  rw [val_main_v3_apply, val_main_c_apply]
  decide

end Cert.ReferenceIdeal.RefValue

end
-- ==== Proof.KI.Value.lean ====
/-
  The idealized kernel program's result, as a function of its arguments: the host lines after the region applied to the
  per-batch-row sums of the specification — the summed weighted loss and the count of valid positions of each batch
  row, of the scores, the mask and the label grid scattered from the edge list —, with the four arguments unchanged.
  No precondition is needed on this side: the kernel's one-hot sum is the specification's own form of the loss.
-/
import proofs.«401166_j78975858639700_2_alg».proof.Proof.KI.Tail
import proofs.«401166_j78975858639700_2_alg».proof.Proof.KI.RowSum
import proofs.«401166_j78975858639700_2_alg».proof.Proof.KI.Prefix

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec

variable (m : (ℓ : Loc nD τ sig) → Buf (Elt Ideal) ℓ) (ρ : Dev nD → PrngReg)

/-- The three arrays the loss depends on, from the launch memory of core `c`: the scores, the mask, and the label grid
    the host lines scatter from the edge endpoints and labels. -/
abbrev adjOf (c : Dev nD) : SAdj.Idx → EReal := m ((c : Thread nD τ).loc main_arg0)
abbrev maskOf (c : Dev nD) : SGrid.Idx → BitVec 1 := m ((c : Thread nD τ).loc main_arg1)
abbrev ansOf (c : Dev nD) : SGrid.Idx → BitVec 32 :=
  Cert.ReferenceIdeal.ReadP.val_main_v27 (F := Ideal) (m ((c : Thread nD τ).loc main_arg2)) (m ((c : Thread nD τ).loc main_arg3))

/-- The per-batch-row sums of the specification, as vectors of 8. -/
def rowS (c : Dev nD) : S8.Idx → EReal := fun b' => sumS (adjOf m c) (maskOf m c) (ansOf m c) ⟨(b' 0).val, (b' 0).isLt⟩
def rowC (c : Dev nD) : S8.Idx → EReal := fun b' => sumC (maskOf m c) ⟨(b' 0).val, (b' 0).isLt⟩

/-- The loss array's row vector is the specification's summed weighted loss per batch row. -/
theorem rowVec_loss (c : Dev nD) : rowVec (lossArr m c) = rowS m c := by
  funext b'
  obtain ⟨b, rfl⟩ : ∃ b : Fin 8, b' = ix1 b := ⟨b' 0, eq_ix1 b'⟩
  rw [rowVec_apply]
  unfold lossArr rowS
  refine (accS_congr m c (show 4 * ((ix3 b (0 : Fin 8) (0 : Fin 128) : S8x8x128.Idx) 0).val + 3 = 4 * b.val + 3 from rfl) _ (rowEnd_lt _ b.isLt)).trans ?_
  refine (accS_rowEnd m c (maskOf m c) (fun p => V_main_v28_apply m c p) b (rowEnd_lt _ b.isLt)).trans ?_
  rw [V_main_v27_eq m c, V_main_arg0 m c]

/-- The count array's row vector is the specification's count of valid positions per batch row. -/
theorem rowVec_count (c : Dev nD) : rowVec (countArr m c) = rowC m c := by
  funext b'
  obtain ⟨b, rfl⟩ : ∃ b : Fin 8, b' = ix1 b := ⟨b' 0, eq_ix1 b'⟩
  rw [rowVec_apply]
  unfold countArr rowC
  refine (accC_congr m c (show 4 * ((ix3 b (0 : Fin 8) (0 : Fin 128) : S8x8x128.Idx) 0).val + 3 = 4 * b.val + 3 from rfl) _ (rowEnd_lt _ b.isLt)).trans ?_
  exact accC_rowEnd m c (maskOf m c) (fun p => V_main_v28_apply m c p) b (rowEnd_lt _ b.isLt)

/-- The idealized kernel program runs, ends with its result at the host tail of the specification's per-row sums, and
    leaves its four arguments unchanged. -/
theorem run_value : θ_run defs (onTc (τ := τ) (main (F := Ideal))) ⟨m, fun _ => 0, ρ⟩ (fun r => ∀ c : Dev nD,
      r.2.mem ((c.tc : Thread nD τ).loc main_v38) = tailOf (rowS m c) (rowC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).2 main_v38 (Pipeline.mem_restRefs_of main_v38 (by decide) (by decide))).trans (tail_v38 m c)).trans
        (by rw [rowVec_loss, rowVec_count]),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.RefValue.lean ====
/-
  The reference's two per-batch-row sums, read back as the specification's: the count of valid positions
  (`sum(valid, axis=(1, 2))`) is `sumC`, and the summed weighted loss (`sum(nll * valid, axis=(1, 2))`) is `sumS` of the
  scores, the mask and the label grid the reference itself scatters — the latter when the scores are finite and every
  label of the grid is a class number: then `take_along_axis` reads the log-softmax at the label, and the reference's
  `−((score − max) − lse)` is the specification's `(max + lse) − score`.
-/
import proofs.«401166_j78975858639700_2_alg».proof.Proof.RefReadP
import proofs.«401166_j78975858639700_2_alg».proof.Proof.PointLaw
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.ValueIdx Cert.Spec

variable (x0 : (⟨S8x16x512x512, .f32⟩ : BufTy).Contents (Elt Ideal)) (x1 : (⟨S8x512x512, .i1⟩ : BufTy).Contents (Elt Ideal))
  (x2 : (⟨S8x1024x2, .i32⟩ : BufTy).Contents (Elt Ideal)) (x3 : (⟨S8x1024, .i32⟩ : BufTy).Contents (Elt Ideal))

/-! ## A sum over the two position axes -/

/-- An index of the grid drops to batch row b exactly when its first coordinate is b. -/
theorem drop_eq_iff (h : S8x512x512.ReducesTo [1, 2] S8) (p : S8x512x512.Idx) (b : Fin 8) :
    h.drop p = ix1 b ↔ p 0 = b := by
  constructor
  · intro e
    have := congrArg (fun q : S8.Idx => (q 0).val) e
    have h0 : (h.drop p 0 : Nat) = p 0 := h.drop_apply_val_of_eq p 0 0
    exact Fin.ext (by simpa [h0] using this)
  · intro e
    funext d
    obtain rfl : d = 0 := Subsingleton.elim _ _
    refine Fin.ext ?_
    have h0 : (h.drop p 0 : Nat) = p 0 := h.drop_apply_val_of_eq p 0 0
    rw [h0, e]

theorem hostReduceAdd_rows (h : S8x512x512.ReducesTo [1, 2] S8) (x : S8x512x512.Idx → EReal) (init : EReal) (b : Fin 8) :
    Ideal.hostReduceAdd h x init (ix1 b) = init + ∑ i : Fin 512, ∑ j : Fin 512, x (ix3 b i j) := by
  unfold Ideal.hostReduceAdd
  congr 1
  rw [← Fintype.sum_prod_type']
  refine Finset.sum_nbij' (fun p => (p 1, p 2)) (fun q => ix3 b q.1 q.2) ?_ ?_ ?_ ?_ ?_
  · intro p _; exact Finset.mem_univ _
  · intro q _
    rw [Finset.mem_filter]
    exact ⟨Finset.mem_univ _, (drop_eq_iff h _ b).2 rfl⟩
  · intro p hp
    rw [Finset.mem_filter] at hp
    have e := (drop_eq_iff h p b).1 hp.2
    show ix3 b (p 1) (p 2) = p
    rw [← e]; exact (eq_ix3 p).symm
  · intro q _; rfl
  · intro p hp
    rw [Finset.mem_filter] at hp
    have e := (drop_eq_iff h p b).1 hp.2
    show x p = x (ix3 b (p 1) (p 2))
    rw [← e]; exact congrArg x (eq_ix3 p)

/-! ## The log-softmax at a position -/

section Idx
variable (b : Fin 8) (c : Fin 16) (z : Fin 1) (i j : Fin 512)

theorem idx_call0_v3 : idx_main_call0_v3 (ix4 b z i j) = ix3 b i j :=
  funext fun a => Fin.ext (by match a with | ⟨0, _⟩ => rfl | ⟨1, _⟩ => rfl | ⟨2, _⟩ => rfl)
theorem idx_call0_v4 : idx_main_call0_v4 (ix4 b c i j) = ix4 b 0 i j :=
  funext fun a => Fin.ext (by match a with | ⟨0, _⟩ => rfl | ⟨1, _⟩ => rfl | ⟨2, _⟩ => rfl | ⟨3, _⟩ => rfl)
theorem idx_call0_v7 : idx_main_call0_v7 (ix3 b i j) c = ix4 b c i j :=
  funext fun a => Fin.ext (by match a with | ⟨0, _⟩ => rfl | ⟨1, _⟩ => rfl | ⟨2, _⟩ => rfl | ⟨3, _⟩ => rfl)
theorem idx_call0_v8 : idx_main_call0_v8 (ix4 b z i j) = ix3 b i j :=
  funext fun a => Fin.ext (by match a with | ⟨0, _⟩ => rfl | ⟨1, _⟩ => rfl | ⟨2, _⟩ => rfl)
theorem idx_call0_v10 : idx_main_call0_v10 (ix4 b c i j) = ix4 b 0 i j :=
  funext fun a => Fin.ext (by match a with | ⟨0, _⟩ => rfl | ⟨1, _⟩ => rfl | ⟨2, _⟩ => rfl | ⟨3, _⟩ => rfl)
end Idx

/-- The bit pattern of minus infinity reads as the bottom element. -/
theorem ofBits_neg_inf : Ideal.ofBits .f32 0xFF800000#32 = ⊥ := by simp [Ideal.ofBits, Ideal.ieee]

/-- The reduce-max stage at a position is the largest score there. -/
theorem max_apply (b : Fin 8) (i j : Fin 512) :
    val_main_call0_v2 (F := Ideal) x0 (ix3 b i j) = rowMax (scores x0 b i j) := by
  rw [val_main_call0_v2_apply, val_main_call0_v1_apply, val_main_call0_cst_0_apply]
  unfold val_main_call0_v0
  have h : S8x16x512x512.Reduces [1] S8x512x512 := by decide
  rw [Host.reduce_eq_fold_single (FloatOps.maximumf (F := Ideal) (φ := .f32)) x0 _ _ h]
  rw [val_main_call0_cst_apply]
  show max (Ideal.ofBits .f32 0xFF800000#32) (Finset.fold max (Ideal.ofBits .f32 0xFF800000#32) (x0 ∘ h.lift (ix3 b i j)) Finset.univ) = _
  rw [ofBits_neg_inf, bot_sup_eq]
  unfold rowMax
  congr 1
  funext c
  exact congrArg x0 (funext fun a => Fin.ext (by match a with | ⟨0, _⟩ => rfl | ⟨1, _⟩ => rfl | ⟨2, _⟩ => rfl | ⟨3, _⟩ => rfl))

/-- The shifted score at a class. -/
theorem shift_apply (b : Fin 8) (c : Fin 16) (i j : Fin 512) :
    val_main_call0_v5 (F := Ideal) x0 (ix4 b c i j) = scores x0 b i j c - rowMax (scores x0 b i j) := by
  rw [val_main_call0_v5_apply, val_main_call0_v4_apply, idx_call0_v4, val_main_call0_v3_apply, idx_call0_v3, max_apply]
  rfl

/-- The sum-of-exponentials stage, then its log. -/
theorem lse_apply (b : Fin 8) (i j : Fin 512) :
    Ideal.log (val_main_call0_v7 (F := Ideal) x0 (ix3 b i j)) = rowLse (scores x0 b i j) := by
  rw [val_main_call0_v7_apply, val_main_call0_cst_1_apply]
  show Ideal.log (Ideal.ofBits .f32 0x00000000#32 + _) = _
  rw [Ideal.ofBits_zero_f32, zero_add]
  unfold rowLse
  congr 1
  refine Finset.sum_congr rfl fun k _ => ?_
  rw [idx_call0_v7, val_main_call0_v6_apply, shift_apply]
  rfl

/-- The log-softmax at a class. -/
theorem logp_apply (b : Fin 8) (c : Fin 16) (i j : Fin 512) :
    val_main_v28 (F := Ideal) x0 (ix4 b c i j)
      = (scores x0 b i j c - rowMax (scores x0 b i j)) - rowLse (scores x0 b i j) := by
  rw [val_main_v28_apply, shift_apply, val_main_call0_v10_apply, idx_call0_v10, val_main_call0_v9_apply,
    val_main_call0_v8_apply, idx_call0_v8]
  show _ - Ideal.log _ = _
  rw [lse_apply]

/-! ## The take along the class axis at a position -/

section Words

/-- A word below sixteen reads the same signed as unsigned. -/
theorem toInt_of_lt (l : BitVec 32) (h : l.toNat < 16) : l.toInt = (l.toNat : Int) := by
  rw [BitVec.toInt_eq_toNat_cond]; rw [if_pos (by omega)]

/-- A word below sixteen is not negative. -/
theorem slt_zero_of_lt (l : BitVec 32) (h : l.toNat < 16) : IntOp.cmpi .slt l 0#32 = 0#1 := by
  have h0 : (0#32 : BitVec 32).toInt = 0 := by decide
  have e : l.slt 0#32 = false := by
    rw [BitVec.slt, decide_eq_false_iff_not, toInt_of_lt l h, h0]; omega
  show BitVec.ofBool (l.slt 0#32) = 0#1
  rw [e]; rfl

theorem sge_zero_of_lt (l : BitVec 32) (h : l.toNat < 16) : IntOp.cmpi .sge l 0#32 = 1#1 := by
  have h0 : (0#32 : BitVec 32).toInt = 0 := by decide
  have e : (0#32 : BitVec 32).sle l = true := by
    rw [BitVec.sle, decide_eq_true_eq, toInt_of_lt l h, h0]; omega
  show BitVec.ofBool ((0#32 : BitVec 32).sle l) = 1#1
  rw [e]; rfl

theorem sle_fifteen_of_lt (l : BitVec 32) (h : l.toNat < 16) : IntOp.cmpi .sle l 15#32 = 1#1 := by
  have h15 : (15#32 : BitVec 32).toInt = 15 := by decide
  have e : l.sle 15#32 = true := by
    rw [BitVec.sle, decide_eq_true_eq, toInt_of_lt l h, h15]; omega
  show BitVec.ofBool (l.sle 15#32) = 1#1
  rw [e]; rfl

theorem toInt_toNat_of_lt (l : BitVec 32) (h : l.toNat < 16) : min l.toInt.toNat 15 = l.toNat := by
  rw [toInt_of_lt l h, Int.toNat_natCast]; omega

/-- A fold over the one-element index set. -/
theorem fold_fin_one {α : Type} (op : α → α → α) [Std.Commutative op] [Std.Associative op] (init : α) (f : Fin 1 → α) :
    (Finset.univ : Finset (Fin 1)).fold op init f = op (f 0) init := by
  rw [Finset.univ_unique, Finset.fold_singleton]; rfl

end Words

section Idx
variable (b : Fin 8) (c : Fin 16) (z : Fin 1) (i j : Fin 512)

theorem idx_v29 : idx_main_v29 (ix4 b z i j) = ix3 b i j :=
  funext fun a => Fin.ext (by match a with | ⟨0, _⟩ => rfl | ⟨1, _⟩ => rfl | ⟨2, _⟩ => rfl)

theorem idx_call1_v5 : idx_main_call1_v5 (ix5 b (0 : Fin 1) i j (0 : Fin 1)) = ix4 b 0 i j :=
  funext fun a => Fin.ext (by
    have hb := b.isLt; have hi := i.isLt; have hj := j.isLt
    match a with
    | ⟨0, _⟩ => show ((((b.val * 1 + 0) * 512 + i.val) * 512 + j.val) * 1 + 0) / 262144 = b.val; omega
    | ⟨1, _⟩ => rfl
    | ⟨2, _⟩ => show ((((b.val * 1 + 0) * 512 + i.val) * 512 + j.val) * 1 + 0) / 512 % 512 = i.val; omega
    | ⟨3, _⟩ => show ((((b.val * 1 + 0) * 512 + i.val) * 512 + j.val) * 1 + 0) % 512 = j.val; omega)

theorem idx_v31 : idx_main_v31 (ix3 b i j) = ix4 b 0 i j :=
  funext fun a => Fin.ext (by
    have hb := b.isLt; have hi := i.isLt; have hj := j.isLt
    match a with
    | ⟨0, _⟩ => show ((b.val * 512 + i.val) * 512 + j.val) / 262144 = b.val; omega
    | ⟨1, _⟩ => rfl
    | ⟨2, _⟩ => show ((b.val * 512 + i.val) * 512 + j.val) / 512 % 512 = i.val; omega
    | ⟨3, _⟩ => show ((b.val * 512 + i.val) * 512 + j.val) % 512 = j.val; omega)
end Idx

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduction by `and` from 1 of an array that is 1 everywhere is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl, hinit]
  exact foldl_andi_one x _ fun n _ => hx n

/-- The wrapped index is the label it wraps, when every label is in range. -/
theorem wrap_any (hlab : ∀ p, (val_main_v27 (F := Ideal) x2 x3 p).toNat < 16) (q : S8x1x512x512.Idx) :
    val_main_call1_v4 (F := Ideal) x2 x3 q = val_main_v27 (F := Ideal) x2 x3 (idx_main_v29 q) := by
  rw [val_main_call1_v4_apply, val_main_call1_v1_apply, val_main_v29_apply,
    val_main_call1_v0_apply, val_main_call1_c_apply, slt_zero_of_lt _ (hlab _), select_zero]

/-- The wrapped index at a position is the label there. -/
theorem wrap_apply (hlab : ∀ p, (val_main_v27 (F := Ideal) x2 x3 p).toNat < 16) (b : Fin 8) (i j : Fin 512) :
    val_main_call1_v5 (F := Ideal) x2 x3 (ix5 b 0 i j 0) = val_main_v27 (F := Ideal) x2 x3 (ix3 b i j) := by
  rw [val_main_call1_v5_apply, idx_call1_v5, wrap_any x2 x3 hlab, idx_v29]

/-- The in-bounds test passes everywhere, when every label is in range. -/
theorem inb_apply (hlab : ∀ p, (val_main_v27 (F := Ideal) x2 x3 p).toNat < 16) (q : S8x1x512x512.Idx) :
    val_main_call1_v12 (F := Ideal) x2 x3 q = 1#1 := by
  unfold val_main_call1_v12
  refine reduce_andi_one _ _ _ _ _ rfl fun r => ?_
  rw [val_main_call1_v11_apply, val_main_call1_v7_apply, val_main_call1_v10_apply, val_main_call1_v5_apply,
    wrap_any x2 x3 hlab, val_main_call1_v6_apply, val_main_call1_c_2_apply, val_main_call1_v9_apply, val_main_call1_v8_apply,
    val_main_call1_c_1_apply, sge_zero_of_lt _ (hlab _), sle_fifteen_of_lt _ (hlab _)]
  rfl

abbrev GD := gather_S8x16x512x512_S8x1x512x512x1_S8x1x512x512_n_1_023_023_1_4_1111

/-- The gather reads the operand at the clamped start index's class, the other coordinates kept. -/
theorem gather_idx (b : Fin 8) (i j : Fin 512) (idx : IVec S8x1x512x512x1 32) (n : Nat) (hn16 : n < 16)
    (hn : min (idx (ix5 b 0 i j 0)).toInt.toNat 15 = n) :
    GD.operandIdx (ix4 b 0 i j) idx = ix4 b ⟨n, hn16⟩ i j := by
  have h0 : (0 : Fin 4) ∈ GD.operandBatchingDims := by decide
  have h2 : (2 : Fin 4) ∈ GD.operandBatchingDims := by decide
  have h3 : (3 : Fin 4) ∈ GD.operandBatchingDims := by decide
  have k0 : (0 : Fin 4) ∉ GD.sKept := by decide
  have k1 : (1 : Fin 4) ∉ GD.sKept := by decide
  have k2 : (2 : Fin 4) ∉ GD.sKept := by decide
  have k3 : (3 : Fin 4) ∉ GD.sKept := by decide
  have hb1 : (1 : Fin 4) ∉ GD.operandBatchingDims := by decide
  have hm : (1 : Fin 4) ∈ GD.startIndexMap := by decide
  funext a
  refine Fin.ext ?_
  match a with
  | ⟨0, _⟩ =>
    show GD.start (ix4 b 0 i j) idx 0 + GD.batchCoord (ix4 b 0 i j) 0 + GD.offCoord (ix4 b 0 i j) 0 = b.val
    rw [GD.start_batching _ idx 0 h0, GD.offCoord_eq_zero _ 0 k0, Nat.zero_add, Nat.add_zero]
    unfold GatherDims.batchCoord
    rw [dif_pos h0]
    rfl
  | ⟨1, _⟩ =>
    show GD.start (ix4 b 0 i j) idx 1 + GD.batchCoord (ix4 b 0 i j) 1 + GD.offCoord (ix4 b 0 i j) 1 = n
    rw [GD.batchCoord_eq_zero _ 1 hb1, GD.offCoord_eq_zero _ 1 k1, Nat.add_zero]
    unfold GatherDims.start
    rw [dif_pos hm]
    have hsi : GD.siIdx (ix4 b 0 i j) ⟨List.idxOf (1 : Fin 4) GD.startIndexMap, List.idxOf_lt_length_iff.2 hm⟩ = ix5 b 0 i j 0 := by
      funext b'
      refine Fin.ext ?_
      match b' with
      | ⟨0, _⟩ => rfl
      | ⟨1, _⟩ => rfl
      | ⟨2, _⟩ => rfl
      | ⟨3, _⟩ => rfl
      | ⟨4, _⟩ => rfl
    rw [hsi]
    exact hn
  | ⟨2, _⟩ =>
    show GD.start (ix4 b 0 i j) idx 2 + GD.batchCoord (ix4 b 0 i j) 2 + GD.offCoord (ix4 b 0 i j) 2 = i.val
    rw [GD.start_batching _ idx 2 h2, GD.offCoord_eq_zero _ 2 k2, Nat.zero_add, Nat.add_zero]
    unfold GatherDims.batchCoord
    rw [dif_pos h2]
    rfl
  | ⟨3, _⟩ =>
    show GD.start (ix4 b 0 i j) idx 3 + GD.batchCoord (ix4 b 0 i j) 3 + GD.offCoord (ix4 b 0 i j) 3 = j.val
    rw [GD.start_batching _ idx 3 h3, GD.offCoord_eq_zero _ 3 k3, Nat.zero_add, Nat.add_zero]
    unfold GatherDims.batchCoord
    rw [dif_pos h3]
    rfl

/-- The taken log-softmax at a position is the log-softmax at the label's class (`l` names the label there). -/
theorem take_apply (hlab : ∀ p, (val_main_v27 (F := Ideal) x2 x3 p).toNat < 16) (b : Fin 8) (i j : Fin 512)
    (l : BitVec 32) (hl : val_main_v27 (F := Ideal) x2 x3 (ix3 b i j) = l) (h16 : l.toNat < 16) :
    val_main_v30 (F := Ideal) x0 x2 x3 (ix4 b 0 i j) = val_main_v28 (F := Ideal) x0 (ix4 b ⟨l.toNat, h16⟩ i j) := by
  have hn : min (val_main_call1_v5 (F := Ideal) x2 x3 (ix5 b 0 i j 0)).toInt.toNat 15 = l.toNat := by
    rw [wrap_apply x2 x3 hlab, hl]
    exact toInt_toNat_of_lt l h16
  rw [val_main_v30_apply, inb_apply x2 x3 hlab, select_one]
  unfold val_main_call1_v13 Host.gather
  rw [gather_idx b i j (val_main_call1_v5 (F := Ideal) x2 x3) l.toNat h16 hn]

/-- The weighted loss at a position is the specification's term. -/
theorem point_apply (hfin : ∀ q, x0 q ≠ ⊥ ∧ x0 q ≠ ⊤) (hlab : ∀ p, (val_main_v27 (F := Ideal) x2 x3 p).toNat < 16)
    (b : Fin 8) (i j : Fin 512) :
    val_main_v37 (F := Ideal) x0 x1 x2 x3 (ix3 b i j) = term x0 x1 (val_main_v27 (F := Ideal) x2 x3) b i j := by
  unfold term
  have h16 := hlab (ix3 b i j)
  generalize hl : val_main_v27 (F := Ideal) x2 x3 (ix3 b i j) = l at h16 ⊢
  rw [val_main_v37_apply, val_main_v32_apply, val_main_v31_apply, idx_v31, take_apply x0 x2 x3 hlab b i j l hl h16, logp_apply,
    val_main_v33_apply]
  have e := nll_eq_neg (scores x0 b i j) (fun c => hfin _) ⟨l.toNat, h16⟩
  have hw : BitVec.ofNat 32 (⟨l.toNat, h16⟩ : Fin 16).val = l := by simp
  rw [hw] at e
  rw [e]
  rfl

/-! ## The two row sums -/

/-- The reference's count of valid positions in batch row `b`. -/
theorem count_apply (b : Fin 8) : val_main_v34 (F := Ideal) x1 (ix1 b) = sumC x1 b := by
  unfold val_main_v34
  simp only [Host.reduceAdd, Ideal.hostReduceAdd_def]
  rw [hostReduceAdd_rows]
  show Ideal.ofBits .f32 0x00000000#32 + _ = _
  rw [Ideal.ofBits_zero_f32, zero_add]
  rfl

/-- The reference's summed weighted loss of batch row `b`, for finite scores and a label grid of class numbers. -/
theorem loss_apply (hfin : ∀ q, x0 q ≠ ⊥ ∧ x0 q ≠ ⊤) (hlab : ∀ p, (val_main_v27 (F := Ideal) x2 x3 p).toNat < 16) (b : Fin 8) :
    val_main_v38 (F := Ideal) x0 x1 x2 x3 (ix1 b) = sumS x0 x1 (val_main_v27 (F := Ideal) x2 x3) b := by
  unfold val_main_v38
  simp only [Host.reduceAdd, Ideal.hostReduceAdd_def]
  rw [hostReduceAdd_rows]
  show Ideal.ofBits .f32 0x00000000#32 + _ = _
  rw [Ideal.ofBits_zero_f32, zero_add]
  unfold sumS
  exact Finset.sum_congr rfl fun i _ => Finset.sum_congr rfl fun j _ => point_apply x0 x1 x2 x3 hfin hlab b i j

end Cert.ReferenceIdeal.RefValue

end
-- ==== Proof.PreDecode.lean ====
/-
  What the precondition says of the inputs, entry by entry: every score is a finite number, and every edge label is a
  class number (as an unsigned word, below 16: the signed word is at least 0 and below 16).
-/
import proofs.«401166_j78975858639700_2_alg».proof.Pre_finite_inputs
import proofs.«401166_j78975858639700_2_alg».proof.Proof.Gen.Pre_finite_inputs
import Idealize.ShloMosaic.PureOps.Ideal
import Idealize.ShloMosaic.Lib.ReduceAll
import Idealize.ShloMosaic.Lib.StableHlo.Predicate

noncomputable section

namespace Cert.PreDecode

open Idealize.ShloMosaic Cert.Pre_finite_inputs Cert.Pre_finite_inputs.Gen

variable (a0 : FVec Ideal S8x16x512x512 .f32) (a1 : IVec S8x512x512 1) (a2 : IVec S8x1024x2 32) (a3 : IVec S8x1024 32)

/-- The scalar shape has one index. -/
instance subsingleton_S_ : Subsingleton S_.Idx := ⟨fun a b => funext fun d => d.elim0⟩

/-- The precondition, read at one entry of each input: the conjunction splits into its two all-reductions, and an
    all-reduction by `and` that is 1 had a 1 at every entry. -/
theorem pre_entries (h : Cert.Pre_finite_inputs.fn (F := Ideal) a0 a1 a2 a3 = fun _ => 1#1) :
    (∀ q, Ideal.cmp .olt (max (a0 q) (-(a0 q))) (Ideal.ofBits .f32 0x7F800000#32) = 1#1)
      ∧ ∀ e, IntOp.andi (IntOp.cmpi .sge (a3 e) 0#32) (IntOp.cmpi .slt (a3 e) 16#32) = 1#1 := by
  have h0 := congrFun h (fun d => d.elim0)
  dsimp only [Cert.Pre_finite_inputs.fn] at h0
  obtain ⟨h1, h2⟩ := IntOp.andi_eq_one.1 h0
  exact ⟨fun q => Host.reduce_andi_all _ _ _ _ _ h1 q, fun e => Host.reduce_andi_all _ _ _ _ _ h2 e⟩

/-- The pattern 0x7F800000 is +∞. -/
theorem inf_bits : Ideal.ofBits .f32 0x7F800000#32 = (⊤ : EReal) := by simp [Ideal.ofBits, Ideal.ieee]

/-- An extended real whose absolute value is below +∞ is neither infinity. -/
theorem finite_of_abs_lt (x : EReal) (hx : Ideal.cmp .olt (max x (-x)) (Ideal.ofBits .f32 0x7F800000#32) = 1#1) :
    x ≠ ⊥ ∧ x ≠ ⊤ := by
  rw [inf_bits] at hx
  have hlt : max x (-x) < ⊤ := by
    simpa [Ideal.cmp, StableHlo.Predicate.ofBool_eq_one_iff] using hx
  obtain ⟨hp, hn⟩ := max_lt_iff.1 hlt
  refine ⟨fun e => ?_, fun e => ?_⟩
  · rw [e, EReal.neg_bot] at hn; exact lt_irrefl _ hn
  · rw [e] at hp; exact lt_irrefl _ hp

/-- A 32-bit word that is at least 0 and below 16 as a signed number is below 16 as an unsigned one. -/
theorem toNat_lt_16 (w : BitVec 32) (hw : IntOp.andi (IntOp.cmpi .sge w 0#32) (IntOp.cmpi .slt w 16#32) = 1#1) :
    w.toNat < 16 := by
  obtain ⟨h0, h16⟩ := IntOp.andi_eq_one.1 hw
  rw [IntOp.cmpi_sge] at h0
  rw [IntOp.cmpi_slt] at h16
  have e0 : (0#32 : BitVec 32).toInt = 0 := by decide
  have e16 : (16#32 : BitVec 32).toInt = 16 := by decide
  rw [e0] at h0
  rw [e16] at h16
  have hlt := w.isLt
  rw [BitVec.toInt_eq_toNat_cond] at h0 h16
  split at h0 <;> omega

/-- Under the precondition every score is finite. -/
theorem adj_finite (h : Cert.Pre_finite_inputs.fn (F := Ideal) a0 a1 a2 a3 = fun _ => 1#1) : ∀ q, a0 q ≠ ⊥ ∧ a0 q ≠ ⊤ :=
  fun q => finite_of_abs_lt (a0 q) ((pre_entries a0 a1 a2 a3 h).1 q)

/-- Under the precondition every edge label is a class number. -/
theorem attr_range (h : Cert.Pre_finite_inputs.fn (F := Ideal) a0 a1 a2 a3 = fun _ => 1#1) : ∀ e, (a3 e).toNat < 16 :=
  fun e => toNat_lt_16 (a3 e) ((pre_entries a0 a1 a2 a3 h).2 e)

end Cert.PreDecode

end
-- ==== Proof.Bridge.lean ====
/-
  The two idealized programs end with equal results.  Both finish with the same host lines — divide each batch row's
  summed loss by the larger of its count and 1, add the eight quotients, divide by 8 — applied to their own per-row
  sums; the kernel's are the specification's sums outright, the reference's are the specification's sums when the scores
  are finite and every edge label is a class number, which is what the precondition says.  The label grid is the same
  array on both sides: the same host lines applied to the same edge endpoints and labels.
-/
import proofs.«401166_j78975858639700_2_alg».proof.Proof.KI.Value
import proofs.«401166_j78975858639700_2_alg».proof.Proof.RefValue
import proofs.«401166_j78975858639700_2_alg».proof.Proof.PreDecode
import proofs.«401166_j78975858639700_2_alg».proof.Defs

noncomputable section

open Idealize.ShloMosaic Idealize.ShloMosaic.TcCoe Idealize.SL.Sem Idealize.ShloMosaic.ValueIdx

namespace Cert.Proof.Bridge

open Cert.Spec Cert.ReferenceIdeal.ReadP

/-- The reference's result is the shared host tail of its own two per-row sums. -/
theorem ref_tail (x0 : (⟨Cert.ReferenceIdeal.S8x16x512x512, .f32⟩ : BufTy).Contents (Elt Ideal)) (x1 : (⟨Cert.ReferenceIdeal.S8x512x512, .i1⟩ : BufTy).Contents (Elt Ideal))
    (x2 : (⟨Cert.ReferenceIdeal.S8x1024x2, .i32⟩ : BufTy).Contents (Elt Ideal)) (x3 : (⟨Cert.ReferenceIdeal.S8x1024, .i32⟩ : BufTy).Contents (Elt Ideal)) :
    val_main_v41 (F := Ideal) x0 x1 x2 x3
      = Cert.KernelIdeal.Hand.tailOf (val_main_v38 (F := Ideal) x0 x1 x2 x3) (val_main_v34 (F := Ideal) x1) := by
  unfold val_main_v41 val_main_v40 val_main_v39 val_main_v36 val_main_v35 val_main_cst_6 val_main_cst_8 val_main_cst_9 Cert.KernelIdeal.Hand.tailOf
  rfl

/-- Under the precondition the reference's per-row summed losses are the specification's. -/
theorem ref_rowS (x0 : (⟨Cert.ReferenceIdeal.S8x16x512x512, .f32⟩ : BufTy).Contents (Elt Ideal)) (x1 : (⟨Cert.ReferenceIdeal.S8x512x512, .i1⟩ : BufTy).Contents (Elt Ideal))
    (x2 : (⟨Cert.ReferenceIdeal.S8x1024x2, .i32⟩ : BufTy).Contents (Elt Ideal)) (x3 : (⟨Cert.ReferenceIdeal.S8x1024, .i32⟩ : BufTy).Contents (Elt Ideal))
    (hfin : ∀ q, x0 q ≠ ⊥ ∧ x0 q ≠ ⊤) (hattr : ∀ e, ((x3 : Cert.ReferenceIdeal.S8x1024.Idx → BitVec 32) e).toNat < 16) :
    val_main_v38 (F := Ideal) x0 x1 x2 x3
      = fun b' : Cert.ReferenceIdeal.S8.Idx => sumS x0 x1 (val_main_v27 (F := Ideal) x2 x3) ⟨(b' 0).val, (b' 0).isLt⟩ := by
  funext b'
  obtain ⟨b, rfl⟩ : ∃ b : Fin 8, b' = ix1 b := ⟨b' 0, eq_ix1 b'⟩
  exact Cert.ReferenceIdeal.RefValue.loss_apply x0 x1 x2 x3 hfin (Cert.ReferenceIdeal.RefValue.labels_range x2 x3 hattr) b

/-- The reference's per-row counts are the specification's. -/
theorem ref_rowC (x1 : (⟨Cert.ReferenceIdeal.S8x512x512, .i1⟩ : BufTy).Contents (Elt Ideal)) :
    val_main_v34 (F := Ideal) x1 = fun b' : Cert.ReferenceIdeal.S8.Idx => sumC x1 ⟨(b' 0).val, (b' 0).isLt⟩ := by
  funext b'
  obtain ⟨b, rfl⟩ : ∃ b : Fin 8, b' = ix1 b := ⟨b' 0, eq_ix1 b'⟩
  exact Cert.ReferenceIdeal.RefValue.count_apply x1 b

/-- The two idealized programs, from memories that agree on the arguments, both run, end with equal results, and
    leave their arguments unchanged. -/
theorem algebraic : Cert.algebraic_KernelIdeal_ReferenceIdeal := by
  intro m ρ m' ρ' hpre hagree
  refine ⟨fun c => Cert.KernelIdeal.Hand.tailOf (Cert.KernelIdeal.Hand.rowS m c) (Cert.KernelIdeal.Hand.rowC m c),
    Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  have hfin := Cert.PreDecode.adj_finite _ _ _ _ (hpre c)
  have hattr := Cert.PreDecode.attr_range _ _ _ _ (hpre c)
  rw [val_main_v41_eq, ref_tail, (hagree c).1, (hagree c).2.1, (hagree c).2.2.1, (hagree c).2.2.2,
    ref_rowS _ _ _ _ hfin hattr, ref_rowC]
  rfl

end Cert.Proof.Bridge

end
-- ==== Proof.lean ====
/-
  The certificate of the masked cross-entropy kernel against its jnp reference.

  The kernel streams the class scores `adj[b, ·, i, j]` tile by tile (128 rows of one batch row at a time), and at each
  position takes the largest score `M`, the log-sum-exp `L` of the scores shifted by `M`, the score at the position's
  label by a one-hot sum over the sixteen classes, and `(M + L) − score` as the negative log-likelihood; it weighs it by
  the mask bit and accumulates, per batch row, the summed weighted loss and the count of valid positions over the row's
  four tiles.  The reference takes `log_softmax`, reads it at the label with `take_along_axis`, negates, weighs and sums
  over the whole row.  Both then divide each row's loss by the larger of its count and 1, add the eight quotients and
  divide by 8.

  Over the extended reals the two agree when every score is finite — then `(M + L) − s = −((s − M) − L)`, whatever `L`
  is — and every label is a class number, so that the reference's index is in range and the kernel's one-hot sum picks
  that class's score: this is the precondition (finite scores; edge labels in `[0, 16)`; the label grid is the zero grid
  with the edge labels scattered into it, so its entries are class numbers too).  Sums over the extended reals
  regroup freely, so the kernel's tile-by-tile, row-by-row, column-by-column order is the reference's sum over a row.

  Frames: each kernel program's region runs to the end at every grid point (the accumulator blocks reset at a row's
  first tile, carried between its tiles, written back after its fourth), the host lines before and after it touch
  none of the four arguments; the reference is host lines only.  The ideal pass rewrote nothing, so the idealized
  kernel is the kernel's own text read at the extended reals.
-/
import proofs.«401166_j78975858639700_2_alg».proof.Defs
import proofs.«401166_j78975858639700_2_alg».proof.Proof.K.Frame
import proofs.«401166_j78975858639700_2_alg».proof.Proof.KI.Frame
import proofs.«401166_j78975858639700_2_alg».proof.Proof.Bridge
import proofs.«401166_j78975858639700_2_alg».proof.Proof.Gen.Kernel
import proofs.«401166_j78975858639700_2_alg».proof.Proof.Gen.KernelIdeal
import proofs.«401166_j78975858639700_2_alg».proof.Proof.Gen.ReferenceIdeal
import proofs.«401166_j78975858639700_2_alg».proof.Proof.Gen.Pre_finite_inputs
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference is host lines only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Bridge.algebraic⟩

end Cert.Proof

end
